-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : FVec F S50000x3 .f32) (main_arg2 : IVec S2x800000 32) (main_arg3 : FVec F S129x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S129x64 .f32 := Host.absf main_arg3
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S1x64 : Shape := ⟨2, ![1, 64]⟩
abbrev S6400x64 : Shape := ⟨2, ![6400, 64]⟩
abbrev S6400x1 : Shape := ⟨2, ![6400, 1]⟩
abbrev S5000x64 : Shape := ⟨2, ![5000, 64]⟩

abbrev nBuf : Space → Nat
  | .hbm => 71
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S129x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x3, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x3, .f32⟩
  | .hbm, ⟨51, _⟩ => ⟨S800000x3, .f32⟩
  | .hbm, ⟨52, _⟩ => ⟨S800000x3, .f32⟩
  | .hbm, ⟨53, _⟩ => ⟨S_, .f32⟩
  | .hbm, ⟨54, _⟩ => ⟨S800000, .f32⟩
  | .hbm, ⟨55, _⟩ => ⟨S800000x1, .f32⟩
  | .hbm, ⟨56, _⟩ => ⟨S64x64, .f32⟩
  | .hbm, ⟨57, _⟩ => ⟨S64x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S64x64, .f32⟩
  | .hbm, ⟨67, _⟩ => ⟨S64x64, .f32⟩
  | .hbm, ⟨68, _⟩ => ⟨S1x64, .f32⟩
  | .hbm, ⟨69, _⟩ => ⟨S1x64, .f32⟩
  | .hbm, ⟨70, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x1, .f32⟩
  | .local _ .vmem, ⟨5, _⟩ => ⟨S6400x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S6400x64, .f32⟩
  | .local _ .vmem, ⟨13, _⟩ => ⟨S6400x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  slices_S129x64_S64x64_0_0 : S129x64.Slices ![0, 0] S64x64
  slices_S129x64_S64x64_64_0 : S129x64.Slices ![64, 0] S64x64
  slices_S129x64_S1x64_128_0 : S129x64.Slices ![128, 0] S1x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S50000x64 : S_.BroadcastsInDim S50000x64 (![] : Fin 0 → Fin S50000x64.rank)
  slices_S128x64_S64x64_0_0 : S128x64.Slices ![0, 0] S64x64
  slices_S128x64_S64x64_64_0 : S128x64.Slices ![64, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S6400x64_S64x64_S6400x64_1_0_0_1_n_n_wf : DotDims.WF S6400x64 S64x64 S6400x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S800000x1.size a
  hwx0_2 : ∀ i : grid0.Coords, EltTy.bits .f32 = 32 ∨ (Rect.block (s := S800000x1) S6400x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x64.size a ≤ S800000x64.size a
  hwx0_9 : ∀ i : grid0.Coords, EltTy.bits .f32 = 32 ∨ (Rect.block (s := S800000x64) S6400x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S6400x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x129 : Shape := ⟨2, ![800000, 129]⟩
abbrev S1x64 : Shape := ⟨2, ![1, 64]⟩
abbrev S50000x128 : Shape := ⟨2, ![50000, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S129x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x3, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x3, .f32⟩
  | .hbm, ⟨33, _⟩ => ⟨S800000x3, .f32⟩
  | .hbm, ⟨34, _⟩ => ⟨S800000x3, .f32⟩
  | .hbm, ⟨35, _⟩ => ⟨S_, .f32⟩
  | .hbm, ⟨36, _⟩ => ⟨S800000, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x129, .f32⟩
  | .hbm, ⟨57, _⟩ => ⟨S800000x64, .f32⟩
  | .hbm, ⟨58, _⟩ => ⟨S1x64, .f32⟩
  | .hbm, ⟨59, _⟩ => ⟨S800000x64, .f32⟩
  | .hbm, ⟨60, _⟩ => ⟨S800000x64, .f32⟩
  | .hbm, ⟨61, _⟩ => ⟨S_, .f32⟩
  | .hbm, ⟨62, _⟩ => ⟨S800000x64, .f32⟩
  | .hbm, ⟨63, _⟩ => ⟨S800000x64, .i1⟩
  | .hbm, ⟨64, _⟩ => ⟨S_, .f32⟩
  | .hbm, ⟨65, _⟩ => ⟨S800000x64, .f32⟩
  | .hbm, ⟨66, _⟩ => ⟨S800000x64, .f32⟩
  | .hbm, ⟨67, _⟩ => ⟨S800000x64, .f32⟩
  | .hbm, ⟨68, _⟩ => ⟨S800000x64, .f32⟩
  | .hbm, ⟨69, _⟩ => ⟨S1x64, .f32⟩
  | .hbm, ⟨70, _⟩ => ⟨S800000x64, .f32⟩
  | .hbm, ⟨71, _⟩ => ⟨S800000x64, .f32⟩
  | .hbm, ⟨72, _⟩ => ⟨S_, .f32⟩
  | .hbm, ⟨73, _⟩ => ⟨S800000x64, .f32⟩
  | .hbm, ⟨74, _⟩ => ⟨S800000x64, .i1⟩
  | .hbm, ⟨75, _⟩ => ⟨S_, .f32⟩
  | .hbm, ⟨76, _⟩ => ⟨S800000x64, .f32⟩
  | .hbm, ⟨77, _⟩ => ⟨S800000x64, .f32⟩
  | .hbm, ⟨78, _⟩ => ⟨S800000x64, .f32⟩
  | .hbm, ⟨79, _⟩ => ⟨S_, .f32⟩
  | .hbm, ⟨80, _⟩ => ⟨S50000x64, .f32⟩
  | .hbm, ⟨81, _⟩ => ⟨S800000x1, .i32⟩
  | .hbm, ⟨82, _⟩ => ⟨S50000x64, .f32⟩
  | .hbm, ⟨83, _⟩ => ⟨S50000x128, .f32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | .hbm, ⟨88, _⟩ => ⟨S_, .f32⟩
  | .hbm, ⟨89, _⟩ => ⟨S50000x64, .f32⟩
  | .hbm, ⟨90, _⟩ => ⟨S50000x64, .i1⟩
  | .hbm, ⟨91, _⟩ => ⟨S_, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S50000x64, .f32⟩
  | .hbm, ⟨99, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x129_S129x64_S800000x64_1_0_0_1_n_n_wf : DotDims.WF S800000x129 S129x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The two message-passing stages as functions of whole arrays, over the extended reals.

  For an edge with source-node feature row `a`, target-node feature row `b` (64 entries each) and squared
  distance `r`, the hidden layer of the edge network is
      hid k = φ( ( (Σ_q a q · Wa q k  +  Σ_q b q · Wb q k)  +  r · wr k )  +  b₁ k )
  and the edge feature is
      out j = φ( (Σ_k hid k · W₂ k j)  +  b₂ j ),
  with φ the leaky rectifier of slope 0.2 (the slope is the binary value of the 32-bit pattern both programs
  carry, never evaluated). The three weight pieces Wa, Wb, wr are rows 0–63, 64–127 and 128 of one 129-row
  matrix; a product of the concatenated row (a, b, r) with that matrix is the same number because a finite sum
  over 129 terms splits into its first 64, its next 64 and its last term, which needs only commutativity and
  associativity of addition on the extended reals (`dot_split3`, `dot_split2`).

  For a node with feature row `a` and aggregated message row `g` the node network is
      hid k = φ( (Σ_q a q · Wa q k  +  Σ_q g q · Wb q k)  +  b₁ k ),
      out j = a j + ( (Σ_k hid k · W₂ k j)  +  b₂ j ).
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx
open scoped BigOperators

/-- A rank-2 array of extended reals with `r` rows and `c` columns. -/
abbrev Mat (r c : Nat) : Type := (⟨2, ![r, c]⟩ : Shape).Idx → EReal

/-- The leaky rectifier, spelt as both programs compute it at one element: keep `x` where `x ≥ 0`, else scale it. -/
def lrelu (x : EReal) : EReal :=
  Scalar.select (Ideal.cmp .oge x (Ideal.ofBits .f32 0x00000000#32)) x (Ideal.ofBits .f32 0x3E4CCCCD#32 * x)

/-- Hidden unit `k` of the edge network for one edge. -/
def edgeHidden (a b : Fin 64 → EReal) (r : EReal) (wa wb : Mat 64 64) (wr b1 : Mat 1 64) (k : Fin 64) : EReal :=
  lrelu ((((∑ q : Fin 64, a q * wa (ix2 q k)) + ∑ q : Fin 64, b q * wb (ix2 q k)) + r * wr (ix2 0 k)) + b1 (ix2 0 k))

/-- Output unit `j` of the edge network for one edge. -/
def edgeRow (a b : Fin 64 → EReal) (r : EReal) (wa wb : Mat 64 64) (wr b1 : Mat 1 64) (w2 : Mat 64 64) (b2 : Mat 1 64)
    (j : Fin 64) : EReal :=
  lrelu ((∑ k : Fin 64, edgeHidden a b r wa wb wr b1 k * w2 (ix2 k j)) + b2 (ix2 0 j))

/-- The edge network applied to every row: row `e` of the result depends on row `e` of the three inputs only. -/
def edgeArr {R : Nat} (hr hc : Mat R 64) (rad : Mat R 1) (wa wb : Mat 64 64) (wr b1 : Mat 1 64) (w2 : Mat 64 64)
    (b2 : Mat 1 64) : Mat R 64 :=
  fun i => edgeRow (fun q => hr (ix2 (n0 := R) (i 0) q)) (fun q => hc (ix2 (n0 := R) (i 0) q))
    (rad (ix2 (n0 := R) (i 0) (0 : Fin 1))) wa wb wr b1 w2 b2 (i 1)

/-- Hidden unit `k` of the node network for one node. -/
def nodeHidden (a g : Fin 64 → EReal) (wa wb : Mat 64 64) (b1 : Mat 1 64) (k : Fin 64) : EReal :=
  lrelu (((∑ q : Fin 64, a q * wa (ix2 q k)) + ∑ q : Fin 64, g q * wb (ix2 q k)) + b1 (ix2 0 k))

/-- Output unit `j` of the node network for one node, with the residual. -/
def nodeRow (a g : Fin 64 → EReal) (wa wb : Mat 64 64) (b1 : Mat 1 64) (w2 : Mat 64 64) (b2 : Mat 1 64) (j : Fin 64) : EReal :=
  a j + ((∑ k : Fin 64, nodeHidden a g wa wb b1 k * w2 (ix2 k j)) + b2 (ix2 0 j))

/-- The node network applied to every row. -/
def nodeArr {R : Nat} (h agg : Mat R 64) (wa wb : Mat 64 64) (b1 : Mat 1 64) (w2 : Mat 64 64) (b2 : Mat 1 64) : Mat R 64 :=
  fun i => nodeRow (fun q => h (ix2 (n0 := R) (i 0) q)) (fun q => agg (ix2 (n0 := R) (i 0) q)) wa wb b1 w2 b2 (i 1)

/-- Equal arguments, equal output unit. -/
theorem edgeRow_congr {a a' b b' : Fin 64 → EReal} {r r' : EReal} {wa wa' wb wb' : Mat 64 64} {wr wr' b1 b1' : Mat 1 64}
    {w2 w2' : Mat 64 64} {b2 b2' : Mat 1 64} {j j' : Fin 64}
    (ha : a = a') (hb : b = b') (hr : r = r') (hwa : wa = wa') (hwb : wb = wb') (hwr : wr = wr') (hb1 : b1 = b1')
    (hw2 : w2 = w2') (hb2 : b2 = b2') (hj : j = j') :
    edgeRow a b r wa wb wr b1 w2 b2 j = edgeRow a' b' r' wa' wb' wr' b1' w2' b2' j' := by
  subst ha hb hr hwa hwb hwr hb1 hw2 hb2 hj
  rfl

/-- Equal arguments, equal output unit. -/
theorem nodeRow_congr {a a' g g' : Fin 64 → EReal} {wa wa' wb wb' : Mat 64 64} {b1 b1' : Mat 1 64}
    {w2 w2' : Mat 64 64} {b2 b2' : Mat 1 64} {j j' : Fin 64}
    (ha : a = a') (hg : g = g') (hwa : wa = wa') (hwb : wb = wb') (hb1 : b1 = b1')
    (hw2 : w2 = w2') (hb2 : b2 = b2') (hj : j = j') :
    nodeRow a g wa wb b1 w2 b2 j = nodeRow a' g' wa' wb' b1' w2' b2' j' := by
  subst ha hg hwa hwb hb1 hw2 hb2 hj
  rfl

/-- The edge network's entry at an index depends on that index's row of the three row-indexed inputs, on the weights
    and on the column: two sets of arrays that agree there give the same entry. -/
theorem edgeArr_congr {R R' : Nat} (hr hc : Mat R 64) (rad : Mat R 1) (wa wb : Mat 64 64) (wr b1 : Mat 1 64) (w2 : Mat 64 64)
    (b2 : Mat 1 64) (hr' hc' : Mat R' 64) (rad' : Mat R' 1) (wa' wb' : Mat 64 64) (wr' b1' : Mat 1 64) (w2' : Mat 64 64)
    (b2' : Mat 1 64) (e : Fin R) (e' : Fin R') (j : Fin 64)
    (h0 : ∀ q : Fin 64, hr (ix2 e q) = hr' (ix2 e' q)) (h1 : ∀ q : Fin 64, hc (ix2 e q) = hc' (ix2 e' q))
    (h2 : rad (ix2 e (0 : Fin 1)) = rad' (ix2 e' (0 : Fin 1)))
    (hwa : wa = wa') (hwb : wb = wb') (hwr : wr = wr') (hb1 : b1 = b1') (hw2 : w2 = w2') (hb2 : b2 = b2') :
    edgeArr hr hc rad wa wb wr b1 w2 b2 (ix2 e j) = edgeArr hr' hc' rad' wa' wb' wr' b1' w2' b2' (ix2 e' j) := by
  subst hwa hwb hwr hb1 hw2 hb2
  show edgeRow (fun q => hr (ix2 e q)) (fun q => hc (ix2 e q)) (rad (ix2 e (0 : Fin 1))) wa wb wr b1 w2 b2 j
    = edgeRow (fun q => hr' (ix2 e' q)) (fun q => hc' (ix2 e' q)) (rad' (ix2 e' (0 : Fin 1))) wa wb wr b1 w2 b2 j
  rw [funext h0, funext h1, h2]

/-- The node network's entry at an index depends on that index's row of the two row-indexed inputs, on the weights
    and on the column. -/
theorem nodeArr_congr {R R' : Nat} (h agg : Mat R 64) (wa wb : Mat 64 64) (b1 : Mat 1 64) (w2 : Mat 64 64) (b2 : Mat 1 64)
    (h' agg' : Mat R' 64) (wa' wb' : Mat 64 64) (b1' : Mat 1 64) (w2' : Mat 64 64) (b2' : Mat 1 64)
    (e : Fin R) (e' : Fin R') (j : Fin 64)
    (h0 : ∀ q : Fin 64, h (ix2 e q) = h' (ix2 e' q)) (h1 : ∀ q : Fin 64, agg (ix2 e q) = agg' (ix2 e' q))
    (hwa : wa = wa') (hwb : wb = wb') (hb1 : b1 = b1') (hw2 : w2 = w2') (hb2 : b2 = b2') :
    nodeArr h agg wa wb b1 w2 b2 (ix2 e j) = nodeArr h' agg' wa' wb' b1' w2' b2' (ix2 e' j) := by
  subst hwa hwb hb1 hw2 hb2
  show nodeRow (fun q => h (ix2 e q)) (fun q => agg (ix2 e q)) wa wb b1 w2 b2 j
    = nodeRow (fun q => h' (ix2 e' q)) (fun q => agg' (ix2 e' q)) wa wb b1 w2 b2 j
  rw [funext h0, funext h1]

/-- A sum over 128 terms is the sum of its first 64 and its last 64. -/
theorem dot_split2 (f : Fin 128 → EReal) :
    ∑ k : Fin 128, f k = (∑ q : Fin 64, f ⟨q.val, by omega⟩) + ∑ q : Fin 64, f ⟨64 + q.val, by omega⟩ := by
  have h := Fin.sum_univ_add (a := 64) (b := 64) (fun k : Fin (64 + 64) => f ⟨k.val, k.isLt⟩)
  refine (show ∑ k : Fin 128, f k = ∑ k : Fin (64 + 64), f ⟨k.val, k.isLt⟩ from rfl).trans (h.trans ?_)
  rfl

/-- A sum over 129 terms is the sum of its first 64, its next 64 and its last term. -/
theorem dot_split3 (f : Fin 129 → EReal) :
    ∑ k : Fin 129, f k
      = ((∑ q : Fin 64, f ⟨q.val, by omega⟩) + ∑ q : Fin 64, f ⟨64 + q.val, by omega⟩) + f ⟨128, by omega⟩ := by
  have h := Fin.sum_univ_castSucc (n := 128) (fun k : Fin (128 + 1) => f ⟨k.val, k.isLt⟩)
  have h2 := dot_split2 (fun k : Fin 128 => f ⟨k.val, by omega⟩)
  exact (show ∑ k : Fin 129, f k = ∑ k : Fin (128 + 1), f ⟨k.val, k.isLt⟩ from rfl).trans
    (h.trans (congrArg (· + f ⟨128, by omega⟩) h2))

end Cert.Spec

end
-- ==== Proof.LibColumnBroadcast.lean ====
/-
  A column broadcast across a row: reading a `[a, 1]` array broadcast to `[a, b]` at an index.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.EdgePayload.lean ====
/-
  The edge kernel's body as arithmetic: what one grid point stores, read at an index.

  The body stores one 6400 × 64 block. Its entry (p, j) is the edge network's output unit j for the p-th edge of
  the block: the two matrix products against the halves of the first weight matrix are sums over 64 terms of row p
  of the two feature blocks, the squared distance of edge p scales the weight row, the bias row is added, the leaky
  rectifier applied; the second product sums the 64 hidden units against a column of the second weight matrix.
  Changes of float format are the identity on the extended reals.
-/
import proofs.«106970_j24395414242137_1_alg».proof.Proof.Gen.KernelIdeal.Skeleton
import proofs.«106970_j24395414242137_1_alg».proof.Proof.Spec
import proofs.«106970_j24395414242137_1_alg».proof.Proof.LibColumnBroadcast
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.EdgeValue

open Cert.KernelIdeal Cert.KernelIdeal.Gen Idealize.ShloMosaic Idealize.ShloMosaic.ValueIdx Cert.Spec
open scoped BigOperators

/-! ## A 6400 × 64 by 64 × 64 product into a zero accumulator, read at an index -/

theorem lhs_axis0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem lhs_axis1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
theorem rhs_axis0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
theorem rhs_axis1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- Entry (p, k) of the product is the sum over the 64 shared coordinates of row p of the left factor times column k
    of the right factor. -/
theorem matmul_at {φ₁ φ₂ : FTy} (l : FVec Ideal S6400x64 φ₁) (r : FVec Ideal S64x64 φ₂) (p : Fin 6400) (k : Fin 64) :
    matmul dot_S6400x64_S64x64_S6400x64_1_0_0_1_n_n none l r (constant S6400x64 .f32 0x00000000#32) (ix2 p k)
      = ∑ q : Fin 64, l (ix2 p q) * r (ix2 q k) := by
  simp only [matmul]
  rw [Ideal.matmul_constant_zero_apply, ← Equiv.sum_comp (ValueIdx.contrEquiv1 dot_S6400x64_S64x64_S6400x64_1_0_0_1_n_n 64 rfl rfl).symm]
  refine Finset.sum_congr rfl fun q _ => ?_
  have hk := ValueIdx.contrEquiv1_symm_val dot_S6400x64_S64x64_S6400x64_1_0_0_1_n_n 64 rfl rfl q
  have el : dot_S6400x64_S64x64_S6400x64_1_0_0_1_n_n.lhsIdx (ix2 p k) ((ValueIdx.contrEquiv1 dot_S6400x64_S64x64_S6400x64_1_0_0_1_n_n 64 rfl rfl).symm q) = ix2 p q := funext fun a => Fin.ext (by
    match a with
    | ⟨0, _⟩ => exact lhs_axis0 _ _
    | ⟨1, _⟩ => exact (lhs_axis1 _ _).trans hk)
  have er : dot_S6400x64_S64x64_S6400x64_1_0_0_1_n_n.rhsIdx (ix2 p k) ((ValueIdx.contrEquiv1 dot_S6400x64_S64x64_S6400x64_1_0_0_1_n_n 64 rfl rfl).symm q) = ix2 q k := funext fun a => Fin.ext (by
    match a with
    | ⟨0, _⟩ => exact (rhs_axis0 _ _).trans hk
    | ⟨1, _⟩ => exact rhs_axis1 _ _)
  rw [el, er]

/-! ## The hidden layer and the output, at an index -/

/-- Hidden unit k of the p-th edge of the block. -/
theorem hidden_at (x0 x1 : Vec Ideal S6400x64 .f32) (x2 : Vec Ideal S6400x1 .f32) (x3 x4 : Vec Ideal S64x64 .f32)
    (x5 x6 : Vec Ideal S1x64 .f32) (p : Fin 6400) (k : Fin 64) :
    k0_pay2 x0 x1 x3 x4 x2 x5 x6 (ix2 p k)
      = edgeHidden (fun q => x0 (ix2 p q)) (fun q => x1 (ix2 p q)) (x2 (ix2 p (0 : Fin 1))) x3 x4 x5 x6 k := by
  unfold k0_pay2 edgeHidden
  dsimp only
  simp only [shapeCast_self]
  show lrelu _ = lrelu _
  refine congrArg lrelu ?_
  simp only [addf_apply, mulf_apply]
  rw [matmul_at, matmul_at, broadcastTo_a1_ab_apply, broadcastTo_1b_ab_apply, broadcastTo_1b_ab_apply]
  rfl

/-- THE BLOCK one grid point stores is the edge network applied to the point's input blocks. -/
theorem payload_eq (x0 x1 : Vec Ideal S6400x64 .f32) (x2 : Vec Ideal S6400x1 .f32) (x3 x4 : Vec Ideal S64x64 .f32)
    (x5 x6 : Vec Ideal S1x64 .f32) (x7 : Vec Ideal S64x64 .f32) (x8 : Vec Ideal S1x64 .f32) :
    k0_pay1 (k0_pay2 x0 x1 x3 x4 x2 x5 x6) (k0_pay3 x7) (constant S6400x64 .f32 0x00000000#32) x8
      = edgeArr (R := 6400) x0 x1 x2 x3 x4 x5 x6 x7 x8 := by
  funext j
  obtain ⟨p, q, rfl⟩ : ∃ (p : Fin 6400) (q : Fin 64), j = ix2 p q := ⟨j 0, j 1, eq_ix2 j⟩
  unfold k0_pay1 k0_pay3 edgeArr edgeRow
  dsimp only
  simp only [shapeCast_self]
  show lrelu _ = lrelu _
  refine congrArg lrelu ?_
  simp only [addf_apply]
  rw [matmul_at, broadcastTo_1b_ab_apply]
  refine congrArg (· + x8 (ix2 (0 : Fin 1) q)) (Finset.sum_congr rfl fun k _ => ?_)
  rw [hidden_at]
  rfl

end Cert.KernelIdeal.EdgeValue

end
-- ==== Proof.EdgeArray.lean ====
/-
  The edge kernel's result array after its 125 grid points.

  Point t stores rows 6400·t … 6400·t + 6399 of the result; each of those rows is the edge network applied to the
  same rows of the two gathered feature arrays and of the squared distances, and to the weight and bias arrays, which
  every point reads whole. The 125 blocks tile the 800000 rows, so the array ends as the edge network applied row by
  row to the arrays the region finds.
-/
import proofs.«106970_j24395414242137_1_alg».proof.Proof.KernelIdealFrame
import proofs.«106970_j24395414242137_1_alg».proof.Proof.EdgePayload

set_option maxRecDepth 16384

noncomputable section

namespace Cert.KernelIdeal.EdgeValue

open Cert.KernelIdeal Cert.KernelIdeal.Gen Cert.KernelIdeal.GenP Idealize.ShloMosaic Idealize.ShloMosaic.TcCoe
open Idealize.ShloMosaic.ValueIdx Cert.Spec Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the three row-indexed inputs and the output are at block row t,
    the weight and bias windows at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The edge network applied row by row to the arrays region 0 finds. -/
abbrev edgeOf (c : Dev nD) : Mat 800000 64 :=
  edgeArr (R := 800000) (V c main_v10) (V c main_v17) (V c main_v35) (V c main_v36) (V c main_v37) (V c main_v38)
    (V c main_v39) (V c main_arg5) (V c main_v40)

/-- WHAT POINT t WRITES BACK is block t of `edgeOf`. -/
theorem flushed_eq (c : Dev nD) (t : Fin cfg0.N) :
    (dat0 V c).flushed 9 t = ((cfg0.win 9).blk t).view.read (Elt Ideal) (edgeOf V c) := by
  show (cfg0.win 9).cut (grid0.coords t) ((dat0 V c).after 9 t) = _
  rw [after0_9]
  unfold out0_9
  rw [View.canon_unit_zero zero_offsets]
  simp only [View.ld_unit_zero (S := S6400x64) zero_offsets, View.ld_unit_zero (S := S64x64) zero_offsets,
    View.ld_unit_zero (S := S6400x1) zero_offsets, View.ld_unit_zero (S := S1x64) zero_offsets]
  obtain ⟨a0, a1, b0, b1, c0, c1, d0, d1, e0, e1, f0, f1, g0, g1, h0, h1, i0, i1, o0, o1⟩ := index_facts t
  funext j
  have hj0 : (j 0).val < 6400 := (j 0).isLt
  have hj1 : (j 1).val < 64 := (j 1).isLt
  refine (congrFun (payload_eq (iblk0 V c 0 t) (iblk0 V c 1 t) (iblk0 V c 2 t) (iblk0 V c 3 t) (iblk0 V c 4 t) (iblk0 V c 5 t)
    (iblk0 V c 6 t) (iblk0 V c 7 t) (iblk0 V c 8 t)) ((win0 9).xinj (grid0.coords t) j)).trans ?_
  show edgeRow _ _ _ _ _ _ _ _ _ _ = edgeRow _ _ _ _ _ _ _ _ _ _
  refine edgeRow_congr (funext fun q => ?_) (funext fun q => ?_) ?_ (funext fun y => ?_) (funext fun y => ?_)
    (funext fun y => ?_) (funext fun y => ?_) (funext fun y => ?_) (funext fun y => ?_) (Fin.ext ?_)
  · show V c main_v10 (((cfg0.win 0).blk t).view.emb (ix2 (⟨(j 0).val, hj0⟩ : Fin 6400) q)) = V c main_v10 _
    refine congrArg (V c main_v10) (funext fun a => Fin.ext ?_)
    match a with
    | ⟨0, _⟩ => show win0_0.index t (0 : Fin 2) * 6400 + 1 * (j 0).val = win0_9.index t (0 : Fin 2) * 6400 + 1 * (j 0).val; omega
    | ⟨1, _⟩ => show win0_0.index t (1 : Fin 2) * 64 + 1 * q.val = q.val; omega
  · show V c main_v17 (((cfg0.win 1).blk t).view.emb (ix2 (⟨(j 0).val, hj0⟩ : Fin 6400) q)) = V c main_v17 _
    refine congrArg (V c main_v17) (funext fun a => Fin.ext ?_)
    match a with
    | ⟨0, _⟩ => show win0_1.index t (0 : Fin 2) * 6400 + 1 * (j 0).val = win0_9.index t (0 : Fin 2) * 6400 + 1 * (j 0).val; omega
    | ⟨1, _⟩ => show win0_1.index t (1 : Fin 2) * 64 + 1 * q.val = q.val; omega
  · show V c main_v35 (((cfg0.win 2).blk t).view.emb (ix2 (⟨(j 0).val, hj0⟩ : Fin 6400) (0 : Fin 1))) = V c main_v35 _
    refine congrArg (V c main_v35) (funext fun a => Fin.ext ?_)
    match a with
    | ⟨0, _⟩ => show win0_2.index t (0 : Fin 2) * 6400 + 1 * (j 0).val = win0_9.index t (0 : Fin 2) * 6400 + 1 * (j 0).val; omega
    | ⟨1, _⟩ => show win0_2.index t (1 : Fin 2) * 1 + 1 * 0 = 0; omega
  · show V c main_v36 (((cfg0.win 3).blk t).view.emb y) = V c main_v36 y
    refine congrArg (V c main_v36) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · show V c main_v37 (((cfg0.win 4).blk t).view.emb y) = V c main_v37 y
    refine congrArg (V c main_v37) (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  · show V c main_v38 (((cfg0.win 5).blk t).view.emb y) = V c main_v38 y
    refine congrArg (V c main_v38) (funext fun a => Fin.ext ?_)
    match a with
    | ⟨0, _⟩ => show win0_5.index t (0 : Fin 2) * 1 + 1 * (y 0).val = (y 0).val; omega
    | ⟨1, _⟩ => show win0_5.index t (1 : Fin 2) * 64 + 1 * (y 1).val = (y 1).val; omega
  · show V c main_v39 (((cfg0.win 6).blk t).view.emb y) = V c main_v39 y
    refine congrArg (V c main_v39) (funext fun a => Fin.ext ?_)
    match a with
    | ⟨0, _⟩ => show win0_6.index t (0 : Fin 2) * 1 + 1 * (y 0).val = (y 0).val; omega
    | ⟨1, _⟩ => show win0_6.index t (1 : Fin 2) * 64 + 1 * (y 1).val = (y 1).val; omega
  · show V c main_arg5 (((cfg0.win 7).blk t).view.emb y) = V c main_arg5 y
    refine congrArg (V c main_arg5) (funext fun a => Fin.ext ?_)
    match a with
    | ⟨0, _⟩ => show win0_7.index t (0 : Fin 2) * 64 + 1 * (y 0).val = (y 0).val; omega
    | ⟨1, _⟩ => show win0_7.index t (1 : Fin 2) * 64 + 1 * (y 1).val = (y 1).val; omega
  · show V c main_v40 (((cfg0.win 8).blk t).view.emb y) = V c main_v40 y
    refine congrArg (V c main_v40) (funext fun a => Fin.ext ?_)
    match a with
    | ⟨0, _⟩ => show win0_8.index t (0 : Fin 2) * 1 + 1 * (y 0).val = (y 0).val; omega
    | ⟨1, _⟩ => show win0_8.index t (1 : Fin 2) * 64 + 1 * (y 1).val = (y 1).val; omega
  · show (j 1).val = win0_9.index t (1 : Fin 2) * 64 + 1 * (j 1).val
    omega

/-- An index of the result array is in point t's block iff each coordinate is in the block's range on its axis. -/
theorem mem_blk (t : Fin cfg0.N) (i : S800000x64.Idx) :
    i ∈ ((cfg0.win 9).blk t).view.set ↔ ∀ a : Fin 2, win0_9.index t a * S6400x64.size a ≤ (i a).val
      ∧ (i a).val < win0_9.index t a * S6400x64.size a + S6400x64.size a := by
  show i ∈ ((View.whole main_v41).slice (win0_9.rect t)).set ↔ _
  rw [View.set_slice_whole, Rect.mem_set_unit]
  exact Iff.rfl

/-- Every row of the result is in some point's block: row r in the block of point r / 6400. -/
theorem cover (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hN : (i 0).val / 6400 < grid0.N := by rw [N_0]; omega
  obtain ⟨-, -, -, -, -, -, -, -, -, -, -, -, -, -, -, -, -, -, o0, o1⟩ := index_facts ⟨(i 0).val / 6400, hN⟩
  refine ⟨⟨(i 0).val / 6400, hN⟩, flush0_9 _, ?_⟩
  rw [mem_blk]
  intro a
  match a with
  | ⟨0, _⟩ =>
    show win0_9.index ⟨(i 0).val / 6400, hN⟩ (0 : Fin 2) * 6400 ≤ (i 0).val
      ∧ (i 0).val < win0_9.index ⟨(i 0).val / 6400, hN⟩ (0 : Fin 2) * 6400 + 6400
    rw [o0]
    show (i 0).val / 6400 * 6400 ≤ (i 0).val ∧ (i 0).val < (i 0).val / 6400 * 6400 + 6400
    omega
  | ⟨1, _⟩ =>
    show win0_9.index ⟨(i 0).val / 6400, hN⟩ (1 : Fin 2) * 64 ≤ (i 1).val
      ∧ (i 1).val < win0_9.index ⟨(i 0).val / 6400, hN⟩ (1 : Fin 2) * 64 + 64
    omega

/-- THE RESULT ARRAY OF REGION 0, entered at any contents `V`: the edge network applied row by row. -/
theorem final (c : Dev nD) : (dat0 V c).arrAt 9 cfg0.N = edgeOf V c :=
  (dat0 V c).arrAt_eq_of_cover 9 (edgeOf V c) (fun t _ => flushed_eq V c t) cover

end Cert.KernelIdeal.EdgeValue

end
-- ==== Proof.NodePayload.lean ====
/-
  The node kernel's body as arithmetic: what one grid point stores, read at an index.

  The body stores one 5000 × 64 block. Its entry (p, j) is the node network's output unit j for the p-th node of
  the block: the node's own feature plus the second layer's sum over the 64 hidden units plus the bias, each hidden
  unit the leaky rectifier of the two 64-term sums (the node's features and its aggregated messages against the two
  halves of the first weight matrix) plus the bias. Changes of float format are the identity on the extended reals.
-/
import proofs.«106970_j24395414242137_1_alg».proof.Proof.Gen.KernelIdeal.Skeleton
import proofs.«106970_j24395414242137_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.NodeValue

open Cert.KernelIdeal Cert.KernelIdeal.Gen Idealize.ShloMosaic Idealize.ShloMosaic.ValueIdx Cert.Spec
open scoped BigOperators

/-! ## A 5000 × 64 by 64 × 64 product into a zero accumulator, read at an index -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, k) of the product is the sum over the 64 shared coordinates of row p of the left factor times column k
    of the right factor. -/
theorem matmul_at {φ₁ φ₂ : FTy} (l : FVec Ideal S5000x64 φ₁) (r : FVec Ideal S64x64 φ₂) (p : Fin 5000) (k : Fin 64) :
    matmul dot_S5000x64_S64x64_S5000x64_1_0_0_1_n_n none l r (constant S5000x64 .f32 0x00000000#32) (ix2 p k)
      = ∑ q : Fin 64, l (ix2 p q) * r (ix2 q k) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun q _ => ?_
  have hk := ValueIdx.contrEquiv1_symm_val dot_S5000x64_S64x64_S5000x64_1_0_0_1_n_n 64 rfl rfl q
  have el : dot_S5000x64_S64x64_S5000x64_1_0_0_1_n_n.lhsIdx (ix2 p k) ((ValueIdx.contrEquiv1 dot_S5000x64_S64x64_S5000x64_1_0_0_1_n_n 64 rfl rfl).symm q) = ix2 p q := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p k) ((ValueIdx.contrEquiv1 dot_S5000x64_S64x64_S5000x64_1_0_0_1_n_n 64 rfl rfl).symm q) = ix2 q k := funext fun a => Fin.ext (by
    match a with
    | ⟨0, _⟩ => exact (rhs_axis0 _ _).trans hk
    | ⟨1, _⟩ => exact rhs_axis1 _ _)
  rw [el, er]

/-! ## The block a grid point stores -/

/-- THE BLOCK one grid point stores is the node network applied to the point's input blocks. -/
theorem payload_eq (x0 x1 : Vec Ideal S5000x64 .f32) (x2 x3 : Vec Ideal S64x64 .f32) (x4 : Vec Ideal S1x64 .f32)
    (x5 : Vec Ideal S64x64 .f32) (x6 : Vec Ideal S1x64 .f32) :
    k1_pay1 x0 x1 x2 x3 x4 x5 x6 = nodeArr (R := 5000) x0 x1 x2 x3 x4 x5 x6 := by
  funext j
  obtain ⟨p, q, rfl⟩ : ∃ (p : Fin 5000) (q : Fin 64), j = ix2 p q := ⟨j 0, j 1, eq_ix2 j⟩
  unfold k1_pay1 nodeArr nodeRow
  dsimp only
  simp only [shapeCast_self]
  simp only [addf_apply]
  rw [matmul_at, broadcastTo_1b_ab_apply]
  refine congrArg (x0 (ix2 p q) + ·) (congrArg (· + x6 (ix2 (0 : Fin 1) q)) (Finset.sum_congr rfl fun k _ => ?_))
  refine congrArg (· * x5 (ix2 k q)) ?_
  unfold nodeHidden
  show lrelu _ = lrelu _
  refine congrArg lrelu ?_
  simp only [addf_apply]
  rw [matmul_at, matmul_at, broadcastTo_1b_ab_apply]
  rfl

end Cert.KernelIdeal.NodeValue

end
-- ==== Proof.NodeArray.lean ====
/-
  The node kernel's result array after its 10 grid points.

  Point t stores rows 5000·t … 5000·t + 4999 of the result; each of those rows is the node network applied to the
  same rows of the node features and of the aggregated messages, and to the weight and bias arrays, which every point
  reads whole. The 10 blocks tile the 50000 rows, so the array ends as the node network applied row by row to the
  arrays the region finds.
-/
import proofs.«106970_j24395414242137_1_alg».proof.Proof.KernelIdealFrame
import proofs.«106970_j24395414242137_1_alg».proof.Proof.NodePayload

set_option maxRecDepth 16384

noncomputable section

namespace Cert.KernelIdeal.NodeValue

open Cert.KernelIdeal Cert.KernelIdeal.Gen Cert.KernelIdeal.GenP Idealize.ShloMosaic Idealize.ShloMosaic.TcCoe
open Idealize.ShloMosaic.ValueIdx Cert.Spec Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the two row-indexed inputs and the output are at block row t,
    the weight and bias windows at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The node network applied row by row to the arrays region 1 finds. -/
abbrev nodeOf (c : Dev nD) : Mat 50000 64 :=
  nodeArr (R := 50000) (V c main_arg0) (V c main_v44) (V c main_v45) (V c main_v46) (V c main_v47) (V c main_arg9)
    (V c main_v48)

/-- WHAT POINT t WRITES BACK is block t of `nodeOf`. -/
theorem flushed_eq (c : Dev nD) (t : Fin cfg1.N) :
    (dat1 V c).flushed 7 t = ((cfg1.win 7).blk t).view.read (Elt Ideal) (nodeOf V c) := by
  show (cfg1.win 7).cut (grid1.coords t) ((dat1 V c).after 7 t) = _
  rw [after1_7]
  unfold out1_7
  rw [View.canon_unit_zero zero_offsets]
  simp only [View.ld_unit_zero (S := S5000x64) zero_offsets, View.ld_unit_zero (S := S64x64) zero_offsets,
    View.ld_unit_zero (S := S1x64) zero_offsets]
  obtain ⟨a0, a1, b0, b1, c0, c1, d0, d1, e0, e1, f0, f1, g0, g1, o0, o1⟩ := index_facts t
  funext j
  have hj0 : (j 0).val < 5000 := (j 0).isLt
  have hj1 : (j 1).val < 64 := (j 1).isLt
  refine (congrFun (payload_eq (iblk1 V c 0 t) (iblk1 V c 1 t) (iblk1 V c 2 t) (iblk1 V c 3 t) (iblk1 V c 4 t) (iblk1 V c 5 t)
    (iblk1 V c 6 t)) ((win1 7).xinj (grid1.coords t) j)).trans ?_
  show nodeArr (R := 5000) _ _ _ _ _ _ _ _ = nodeArr (R := 50000) _ _ _ _ _ _ _ _
  unfold nodeArr
  refine nodeRow_congr (funext fun q => ?_) (funext fun q => ?_) (funext fun y => ?_) (funext fun y => ?_)
    (funext fun y => ?_) (funext fun y => ?_) (funext fun y => ?_) (Fin.ext ?_)
  · show V c main_arg0 (((cfg1.win 0).blk t).view.emb (ix2 (⟨(j 0).val, hj0⟩ : Fin 5000) q)) = V c main_arg0 _
    refine congrArg (V c main_arg0) (funext fun a => Fin.ext ?_)
    match a with
    | ⟨0, _⟩ => show win1_0.index t (0 : Fin 2) * 5000 + 1 * (j 0).val = win1_7.index t (0 : Fin 2) * 5000 + 1 * (j 0).val; omega
    | ⟨1, _⟩ => show win1_0.index t (1 : Fin 2) * 64 + 1 * q.val = q.val; omega
  · show V c main_v44 (((cfg1.win 1).blk t).view.emb (ix2 (⟨(j 0).val, hj0⟩ : Fin 5000) q)) = V c main_v44 _
    refine congrArg (V c main_v44) (funext fun a => Fin.ext ?_)
    match a with
    | ⟨0, _⟩ => show win1_1.index t (0 : Fin 2) * 5000 + 1 * (j 0).val = win1_7.index t (0 : Fin 2) * 5000 + 1 * (j 0).val; omega
    | ⟨1, _⟩ => show win1_1.index t (1 : Fin 2) * 64 + 1 * q.val = q.val; omega
  · show V c main_v45 (((cfg1.win 2).blk t).view.emb y) = V c main_v45 y
    refine congrArg (V c main_v45) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · show V c main_v46 (((cfg1.win 3).blk t).view.emb y) = V c main_v46 y
    refine congrArg (V c main_v46) (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · show V c main_v47 (((cfg1.win 4).blk t).view.emb y) = V c main_v47 y
    refine congrArg (V c main_v47) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  · show V c main_arg9 (((cfg1.win 5).blk t).view.emb y) = V c main_arg9 y
    refine congrArg (V c main_arg9) (funext fun a => Fin.ext ?_)
    match a with
    | ⟨0, _⟩ => show win1_5.index t (0 : Fin 2) * 64 + 1 * (y 0).val = (y 0).val; omega
    | ⟨1, _⟩ => show win1_5.index t (1 : Fin 2) * 64 + 1 * (y 1).val = (y 1).val; omega
  · show V c main_v48 (((cfg1.win 6).blk t).view.emb y) = V c main_v48 y
    refine congrArg (V c main_v48) (funext fun a => Fin.ext ?_)
    match a with
    | ⟨0, _⟩ => show win1_6.index t (0 : Fin 2) * 1 + 1 * (y 0).val = (y 0).val; omega
    | ⟨1, _⟩ => show win1_6.index t (1 : Fin 2) * 64 + 1 * (y 1).val = (y 1).val; omega
  · show (j 1).val = win1_7.index t (1 : Fin 2) * 64 + 1 * (j 1).val
    omega

/-- An index of the result array is in point t's block iff each coordinate is in the block's range on its axis. -/
theorem mem_blk (t : Fin cfg1.N) (i : S50000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v49).slice (win1_7.rect t)).set ↔ _
  rw [View.set_slice_whole, Rect.mem_set_unit]
  exact Iff.rfl

/-- Every row of the result is in some point's block: row r in the block of point r / 5000. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : (i 0).val / 5000 < grid1.N := by rw [N_1]; omega
  obtain ⟨-, -, -, -, -, -, -, -, -, -, -, -, -, -, o0, o1⟩ := index_facts ⟨(i 0).val / 5000, hN⟩
  refine ⟨⟨(i 0).val / 5000, hN⟩, flush1_7 _, ?_⟩
  rw [mem_blk]
  intro a
  match a with
  | ⟨0, _⟩ =>
    show win1_7.index ⟨(i 0).val / 5000, hN⟩ (0 : Fin 2) * 5000 ≤ (i 0).val
      ∧ (i 0).val < win1_7.index ⟨(i 0).val / 5000, hN⟩ (0 : Fin 2) * 5000 + 5000
    rw [o0]
    show (i 0).val / 5000 * 5000 ≤ (i 0).val ∧ (i 0).val < (i 0).val / 5000 * 5000 + 5000
    omega
  | ⟨1, _⟩ =>
    show win1_7.index ⟨(i 0).val / 5000, hN⟩ (1 : Fin 2) * 64 ≤ (i 1).val
      ∧ (i 1).val < win1_7.index ⟨(i 0).val / 5000, hN⟩ (1 : Fin 2) * 64 + 64
    omega

/-- THE RESULT ARRAY OF REGION 1, entered at any contents `V`: the node network applied row by row. -/
theorem final (c : Dev nD) : (dat1 V c).arrAt 7 cfg1.N = nodeOf V c :=
  (dat1 V c).arrAt_eq_of_cover 7 (nodeOf V c) (fun t _ => flushed_eq V c t) cover

end Cert.KernelIdeal.NodeValue

end
-- ==== Proof.KernelHost.lean ====
/-
  What the idealized kernel program's buffers hold at the end of @main, read off the run's last boundary.

  The run ends with every buffer at the fold of @main's four segments. The node-feature result is region 1's array,
  the node network applied row by row to what region 1 finds; the edge-feature result is region 0's array, which the
  second host stretch and region 1 leave alone; an argument array no segment writes is as launched.
-/
import proofs.«106970_j24395414242137_1_alg».proof.Proof.KernelIdealRun
import proofs.«106970_j24395414242137_1_alg».proof.Proof.EdgeArray
import proofs.«106970_j24395414242137_1_alg».proof.Proof.NodeArray
import Idealize.ShloMosaic.Lib.StableHlo.Run

set_option maxRecDepth 16384

noncomputable section

namespace Cert.KernelIdeal.HostValue

open Cert.KernelIdeal Cert.KernelIdeal.Gen Cert.KernelIdeal.GenP Idealize.ShloMosaic Idealize.ShloMosaic.TcCoe
open Idealize.ShloMosaic.ValueIdx Cert.Spec Idealize.SL.Sem Idealize.ShloMosaic.StableHlo

variable (m : (ℓ : Loc nD τ sig) → Buf (Elt Ideal) ℓ) (ρ : Dev nD → PrngReg)

/-! ## The two computed results -/

/-- The node-feature result is the node network applied row by row to the arrays region 1 is entered with. -/
theorem W4_v49 (c : Dev nD) : W4 m ρ c (Proc.devRef .tc main_v49) = NodeValue.nodeOf (V3 m ρ) c :=
  (W4_arr m ρ c 7).trans (NodeValue.final (V3 m ρ) c)

/-- The second host stretch does not write the edge-feature array. -/
theorem W3_v41 (c : Dev nD) : W3 m ρ c (Proc.devRef .tc main_v41) = W2 m ρ c (Proc.devRef .tc main_v41) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- At region 0's exit the edge-feature array is the edge network applied row by row to what region 0 is entered with. -/
theorem W2_v41 (c : Dev nD) : W2 m ρ c (Proc.devRef .tc main_v41) = EdgeValue.edgeOf (V1 m ρ) c :=
  (W2_arr m ρ c 9).trans (EdgeValue.final (V1 m ρ) c)

/-- The edge-feature result: region 0's array, untouched by what follows. -/
theorem W4_v41 (c : Dev nD) : W4 m ρ c (Proc.devRef .tc main_v41) = EdgeValue.edgeOf (V1 m ρ) c :=
  (W4_of_ne m ρ c main_v41 (by decide)).trans ((W3_v41 m ρ c).trans (W2_v41 m ρ c))

/-! ## Arguments at region 0's exit: as launched -/

theorem W2_main_arg0 (c : Dev nD) : W2 m ρ c (Proc.devRef .tc main_arg0) = m ((c : Thread nD τ).loc main_arg0) :=
  (W2_of_ne m ρ c main_arg0 (by decide)).trans
    ((StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg0) = W0 m ρ c (Proc.devRef .tc main_arg0)).trans rfl)

theorem W2_main_arg7 (c : Dev nD) : W2 m ρ c (Proc.devRef .tc main_arg7) = m ((c : Thread nD τ).loc main_arg7) :=
  (W2_of_ne m ρ c main_arg7 (by decide)).trans
    ((StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg7) = W0 m ρ c (Proc.devRef .tc main_arg7)).trans rfl)

theorem W2_main_arg8 (c : Dev nD) : W2 m ρ c (Proc.devRef .tc main_arg8) = m ((c : Thread nD τ).loc main_arg8) :=
  (W2_of_ne m ρ c main_arg8 (by decide)).trans
    ((StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg8) = W0 m ρ c (Proc.devRef .tc main_arg8)).trans rfl)

theorem W2_main_arg9 (c : Dev nD) : W2 m ρ c (Proc.devRef .tc main_arg9) = m ((c : Thread nD τ).loc main_arg9) :=
  (W2_of_ne m ρ c main_arg9 (by decide)).trans
    ((StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg9) = W0 m ρ c (Proc.devRef .tc main_arg9)).trans rfl)

theorem W2_main_arg10 (c : Dev nD) : W2 m ρ c (Proc.devRef .tc main_arg10) = m ((c : Thread nD τ).loc main_arg10) :=
  (W2_of_ne m ρ c main_arg10 (by decide)).trans
    ((StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg10) = W0 m ρ c (Proc.devRef .tc main_arg10)).trans rfl)

/-! ## Region 1's entry arrays -/

/-- The aggregated messages: the scatter-add of the edge features into a zero array at the row indices. -/
theorem V3_v44 (c : Dev nD) : (V3 m ρ c main_v44 : S50000x64.Idx → EReal) =
    Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 (W2 m ρ c (Proc.devRef .tc main_v1)))
      (W2 m ρ c (Proc.devRef .tc main_v41)) := by
  show StableHlo.after hostOps1 (W2 m ρ c) (Proc.devRef .tc main_v44) = _
  after_results

/-- Region 1 reads the node features as launched. -/
theorem V3_arg0 (c : Dev nD) : V3 m ρ c main_arg0 = m ((c : Thread nD τ).loc main_arg0) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg0) = W2 m ρ c (Proc.devRef .tc main_arg0)).trans (W2_main_arg0 m ρ c)

/-- Region 1 reads the second node weight matrix as launched. -/
theorem V3_arg9 (c : Dev nD) : V3 m ρ c main_arg9 = m ((c : Thread nD τ).loc main_arg9) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg9) = W2 m ρ c (Proc.devRef .tc main_arg9)).trans (W2_main_arg9 m ρ c)

/-- The first half of the first node weight matrix: its rows 0 to 63. -/
theorem V3_v45_at (c : Dev nD) (q k : Fin 64) :
    (V3 m ρ c main_v45 : S64x64.Idx → EReal) (ix2 q k)
      = (m ((c : Thread nD τ).loc main_arg7) : S128x64.Idx → EReal) (ix2 (⟨q.val, by omega⟩ : Fin 128) k) := by
  have e : (V3 m ρ c main_v45 : S64x64.Idx → EReal)
      = extractStridedSlice S64x64 ![0, 0] (W2 m ρ c (Proc.devRef .tc main_arg7)) slices_S128x64_S64x64_0_0 := by
    show StableHlo.after hostOps1 (W2 m ρ c) (Proc.devRef .tc main_v45) = _
    after_results
  rw [e, W2_main_arg7]
  exact slice2_axis0_apply 0 _ slices_S128x64_S64x64_0_0 q k _ (by show q.val = 0 + q.val; omega)

/-- The second half of the first node weight matrix: its rows 64 to 127. -/
theorem V3_v46_at (c : Dev nD) (q k : Fin 64) :
    (V3 m ρ c main_v46 : S64x64.Idx → EReal) (ix2 q k)
      = (m ((c : Thread nD τ).loc main_arg7) : S128x64.Idx → EReal) (ix2 (⟨64 + q.val, by omega⟩ : Fin 128) k) := by
  have e : (V3 m ρ c main_v46 : S64x64.Idx → EReal)
      = extractStridedSlice S64x64 ![64, 0] (W2 m ρ c (Proc.devRef .tc main_arg7)) slices_S128x64_S64x64_64_0 := by
    show StableHlo.after hostOps1 (W2 m ρ c) (Proc.devRef .tc main_v46) = _
    after_results
  rw [e, W2_main_arg7]
  exact slice2_axis0_apply 64 _ slices_S128x64_S64x64_64_0 q k _ rfl

/-- The first node bias as one row. -/
theorem V3_v47_at (c : Dev nD) (k : Fin 64) :
    (V3 m ρ c main_v47 : S1x64.Idx → EReal) (ix2 (0 : Fin 1) k)
      = (m ((c : Thread nD τ).loc main_arg8) : S64.Idx → EReal) (ix1 k) := by
  have e : (V3 m ρ c main_v47 : S1x64.Idx → EReal)
      = shapeCast S1x64 (W2 m ρ c (Proc.devRef .tc main_arg8)) shapeCasts_S64_S1x64 := by
    show StableHlo.after hostOps1 (W2 m ρ c) (Proc.devRef .tc main_v47) = _
    after_results
    rfl
  rw [e, W2_main_arg8]
  exact shapeCast_a_1a_apply _ shapeCasts_S64_S1x64 0 k

/-- The second node bias as one row. -/
theorem V3_v48_at (c : Dev nD) (k : Fin 64) :
    (V3 m ρ c main_v48 : S1x64.Idx → EReal) (ix2 (0 : Fin 1) k)
      = (m ((c : Thread nD τ).loc main_arg10) : S64.Idx → EReal) (ix1 k) := by
  have e : (V3 m ρ c main_v48 : S1x64.Idx → EReal)
      = shapeCast S1x64 (W2 m ρ c (Proc.devRef .tc main_arg10)) shapeCasts_S64_S1x64 := by
    show StableHlo.after hostOps1 (W2 m ρ c) (Proc.devRef .tc main_v48) = _
    after_results
    rfl
  rw [e, W2_main_arg10]
  exact shapeCast_a_1a_apply _ shapeCasts_S64_S1x64 0 k

/-! ## Region 0's entry arrays: the weights and biases -/

/-- Rows 0 to 63 of the first edge weight matrix. -/
theorem V1_v36_at (c : Dev nD) (q k : Fin 64) :
    (V1 m ρ c main_v36 : S64x64.Idx → EReal) (ix2 q k)
      = (m ((c : Thread nD τ).loc main_arg3) : S129x64.Idx → EReal) (ix2 (⟨q.val, by omega⟩ : Fin 129) k) := by
  have e : (V1 m ρ c main_v36 : S64x64.Idx → EReal)
      = extractStridedSlice S64x64 ![0, 0] (m ((c : Thread nD τ).loc main_arg3)) slices_S129x64_S64x64_0_0 := by
    show StableHlo.after hostOps0 (W0 m ρ c) (Proc.devRef .tc main_v36) = _
    after_results_simp <;> rfl
  rw [e]
  exact slice2_axis0_apply 0 _ slices_S129x64_S64x64_0_0 q k _ (by show q.val = 0 + q.val; omega)

/-- Rows 64 to 127 of the first edge weight matrix. -/
theorem V1_v37_at (c : Dev nD) (q k : Fin 64) :
    (V1 m ρ c main_v37 : S64x64.Idx → EReal) (ix2 q k)
      = (m ((c : Thread nD τ).loc main_arg3) : S129x64.Idx → EReal) (ix2 (⟨64 + q.val, by omega⟩ : Fin 129) k) := by
  have e : (V1 m ρ c main_v37 : S64x64.Idx → EReal)
      = extractStridedSlice S64x64 ![64, 0] (m ((c : Thread nD τ).loc main_arg3)) slices_S129x64_S64x64_64_0 := by
    show StableHlo.after hostOps0 (W0 m ρ c) (Proc.devRef .tc main_v37) = _
    after_results_simp <;> rfl
  rw [e]
  exact slice2_axis0_apply 64 _ slices_S129x64_S64x64_64_0 q k _ rfl

/-- Row 128 of the first edge weight matrix, as one row. -/
theorem V1_v38_at (c : Dev nD) (k : Fin 64) :
    (V1 m ρ c main_v38 : S1x64.Idx → EReal) (ix2 (0 : Fin 1) k)
      = (m ((c : Thread nD τ).loc main_arg3) : S129x64.Idx → EReal) (ix2 (⟨128, by omega⟩ : Fin 129) k) := by
  have e : (V1 m ρ c main_v38 : S1x64.Idx → EReal)
      = extractStridedSlice S1x64 ![128, 0] (m ((c : Thread nD τ).loc main_arg3)) slices_S129x64_S1x64_128_0 := by
    show StableHlo.after hostOps0 (W0 m ρ c) (Proc.devRef .tc main_v38) = _
    after_results_simp <;> rfl
  rw [e]
  exact slice2_axis0_apply 128 _ slices_S129x64_S1x64_128_0 (0 : Fin 1) k _ rfl

/-- The first edge bias as one row. -/
theorem V1_v39_at (c : Dev nD) (k : Fin 64) :
    (V1 m ρ c main_v39 : S1x64.Idx → EReal) (ix2 (0 : Fin 1) k)
      = (m ((c : Thread nD τ).loc main_arg4) : S64.Idx → EReal) (ix1 k) := by
  have e : (V1 m ρ c main_v39 : S1x64.Idx → EReal)
      = shapeCast S1x64 (m ((c : Thread nD τ).loc main_arg4)) shapeCasts_S64_S1x64 := by
    show StableHlo.after hostOps0 (W0 m ρ c) (Proc.devRef .tc main_v39) = _
    after_results_simp <;> rfl
  rw [e]
  exact shapeCast_a_1a_apply _ shapeCasts_S64_S1x64 0 k

/-- The second edge bias as one row. -/
theorem V1_v40_at (c : Dev nD) (k : Fin 64) :
    (V1 m ρ c main_v40 : S1x64.Idx → EReal) (ix2 (0 : Fin 1) k)
      = (m ((c : Thread nD τ).loc main_arg6) : S64.Idx → EReal) (ix1 k) := by
  have e : (V1 m ρ c main_v40 : S1x64.Idx → EReal)
      = shapeCast S1x64 (m ((c : Thread nD τ).loc main_arg6)) shapeCasts_S64_S1x64 := by
    show StableHlo.after hostOps0 (W0 m ρ c) (Proc.devRef .tc main_v40) = _
    after_results_simp <;> rfl
  rw [e]
  exact shapeCast_a_1a_apply _ shapeCasts_S64_S1x64 0 k

/-- Region 0 reads the second edge weight matrix as launched. -/
theorem V1_arg5 (c : Dev nD) : V1 m ρ c main_arg5 = m ((c : Thread nD τ).loc main_arg5) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg5) = W0 m ρ c (Proc.devRef .tc main_arg5)).trans rfl

end Cert.KernelIdeal.HostValue

end
-- ==== Proof.RefValue.lean ====
/-
  The reference's two stages as the same arithmetic as the kernel's bodies.

  The reference multiplies the concatenated row (source features, target features, squared distance) by the whole
  129-row weight matrix. Read at an index that product is a sum over 129 terms; its first 64 terms read the source
  features against rows 0 to 63, its next 64 the target features against rows 64 to 127, its last the squared distance
  against row 128: the three pieces the kernel computes apart. After that the two sides apply the same bias, the same
  leaky rectifier and the same second layer.
-/
import proofs.«106970_j24395414242137_1_alg».proof.Proof.RefStages
import proofs.«106970_j24395414242137_1_alg».proof.Proof.Spec
import Idealize.ShloMosaic.Lib.ValueLayout

noncomputable section

namespace Cert.ReferenceIdeal.RefValue

open Cert.ReferenceIdeal Cert.ReferenceIdeal.Gen Cert.ReferenceIdeal.ReadP Idealize.ShloMosaic Idealize.ShloMosaic.ValueIdx Cert.Spec
open scoped BigOperators

/-! ## The concatenated edge input read at an index -/

/-- Columns 0 to 63 are the source node's features. -/
theorem cat3_left (x0 : (⟨S50000x64, .f32⟩ : BufTy).Contents (Elt Ideal)) (x1 : (⟨S50000x3, .f32⟩ : BufTy).Contents (Elt Ideal)) (x2 : (⟨S2x800000, .i32⟩ : BufTy).Contents (Elt Ideal))
    (j : S800000x129.Idx) (e : Fin 800000) (q : Fin 64) (h0 : (j 0).val = e.val) (h1 : (j 1).val = q.val) :
    val_main_v36 (F := Ideal) x0 x1 x2 j = val_main_v28 (F := Ideal) x0 x2 (ix2 e q) := by
  unfold val_main_v36
  refine concatenate_apply_piece (1 : Fin S800000x129.rank)
    [⟨S800000x64, val_main_v28 (F := Ideal) x0 x2⟩, ⟨S800000x64, val_main_v35 (F := Ideal) x0 x2⟩, ⟨S800000x1, val_main_v21 (F := Ideal) x1 x2⟩]
    concatenates_S800000x64_S800000x64_S800000x1_S800000x129_d1 j
    0 (by show (0 : Nat) < 3; omega) S800000x64 _ rfl rfl 0 rfl (ix2 e q) (fun b hb => ?_) ?_
  · match b with
    | ⟨0, _⟩ => exact h0.symm
    | ⟨1, _⟩ => exact absurd rfl hb
  · show 0 + q.val = (j 1).val
    omega

/-- Columns 64 to 127 are the target node's features. -/
theorem cat3_mid (x0 : (⟨S50000x64, .f32⟩ : BufTy).Contents (Elt Ideal)) (x1 : (⟨S50000x3, .f32⟩ : BufTy).Contents (Elt Ideal)) (x2 : (⟨S2x800000, .i32⟩ : BufTy).Contents (Elt Ideal))
    (j : S800000x129.Idx) (e : Fin 800000) (q : Fin 64) (h0 : (j 0).val = e.val) (h1 : (j 1).val = 64 + q.val) :
    val_main_v36 (F := Ideal) x0 x1 x2 j = val_main_v35 (F := Ideal) x0 x2 (ix2 e q) := by
  unfold val_main_v36
  refine concatenate_apply_piece (1 : Fin S800000x129.rank)
    [⟨S800000x64, val_main_v28 (F := Ideal) x0 x2⟩, ⟨S800000x64, val_main_v35 (F := Ideal) x0 x2⟩, ⟨S800000x1, val_main_v21 (F := Ideal) x1 x2⟩]
    concatenates_S800000x64_S800000x64_S800000x1_S800000x129_d1 j
    1 (by show (1 : Nat) < 3; omega) S800000x64 _ rfl rfl 64 rfl (ix2 e q) (fun b hb => ?_) ?_
  · match b with
    | ⟨0, _⟩ => exact h0.symm
    | ⟨1, _⟩ => exact absurd rfl hb
  · show 64 + q.val = (j 1).val
    omega

/-- Column 128 is the squared distance. -/
theorem cat3_right (x0 : (⟨S50000x64, .f32⟩ : BufTy).Contents (Elt Ideal)) (x1 : (⟨S50000x3, .f32⟩ : BufTy).Contents (Elt Ideal)) (x2 : (⟨S2x800000, .i32⟩ : BufTy).Contents (Elt Ideal))
    (j : S800000x129.Idx) (e : Fin 800000) (h0 : (j 0).val = e.val) (h1 : (j 1).val = 128) :
    val_main_v36 (F := Ideal) x0 x1 x2 j = val_main_v21 (F := Ideal) x1 x2 (ix2 e (0 : Fin 1)) := by
  unfold val_main_v36
  refine concatenate_apply_piece (1 : Fin S800000x129.rank)
    [⟨S800000x64, val_main_v28 (F := Ideal) x0 x2⟩, ⟨S800000x64, val_main_v35 (F := Ideal) x0 x2⟩, ⟨S800000x1, val_main_v21 (F := Ideal) x1 x2⟩]
    concatenates_S800000x64_S800000x64_S800000x1_S800000x129_d1 j
    2 (by show (2 : Nat) < 3; omega) S800000x1 _ rfl rfl 128 rfl (ix2 e (0 : Fin 1)) (fun b hb => ?_) ?_
  · match b with
    | ⟨0, _⟩ => exact h0.symm
    | ⟨1, _⟩ => exact absurd rfl hb
  · show 128 + 0 = (j 1).val
    omega

/-! ## The hidden layer and the edge features -/

/-- The reference's hidden unit k of edge e is the kernel's: the 129-term sum split into its three pieces. -/
theorem hidden_ref (x0 : (⟨S50000x64, .f32⟩ : BufTy).Contents (Elt Ideal)) (x1 : (⟨S50000x3, .f32⟩ : BufTy).Contents (Elt Ideal)) (x2 : (⟨S2x800000, .i32⟩ : BufTy).Contents (Elt Ideal))
    (x3 : (⟨S129x64, .f32⟩ : BufTy).Contents (Elt Ideal)) (x4 : (⟨S64, .f32⟩ : BufTy).Contents (Elt Ideal))
    (wa wb : Mat 64 64) (wr b1 : Mat 1 64)
    (hwa : ∀ q k : Fin 64, wa (ix2 q k) = x3 (ix2 (⟨q.val, by omega⟩ : Fin 129) k))
    (hwb : ∀ q k : Fin 64, wb (ix2 q k) = x3 (ix2 (⟨64 + q.val, by omega⟩ : Fin 129) k))
    (hwr : ∀ k : Fin 64, wr (ix2 (0 : Fin 1) k) = x3 (ix2 (⟨128, by omega⟩ : Fin 129) k))
    (hb1 : ∀ k : Fin 64, b1 (ix2 (0 : Fin 1) k) = x4 (ix1 k))
    (e : Fin 800000) (k : Fin 64) :
    val_main_v45 (F := Ideal) x0 x1 x2 x3 x4 (ix2 e k)
      = edgeHidden (fun q => val_main_v28 (F := Ideal) x0 x2 (ix2 e q)) (fun q => val_main_v35 (F := Ideal) x0 x2 (ix2 e q))
          (val_main_v21 (F := Ideal) x1 x2 (ix2 e (0 : Fin 1))) wa wb wr b1 k := by
  rw [val_main_v45_apply, val_main_v42_apply, val_main_v44_apply, val_main_v41_apply, val_main_v43_apply,
    val_main_cst_7_apply, val_main_cst_8_apply]
  unfold edgeHidden
  show lrelu (val_main_v40 (F := Ideal) x0 x1 x2 x3 x4 (ix2 e k)) = lrelu _
  refine congrArg lrelu ?_
  rw [val_main_v40_apply, val_main_v37_apply, val_main_v39_apply, val_main_v38_apply, dot_split3]
  show ((∑ q : Fin 64, _) + (∑ q : Fin 64, _) + _) + _ = ((∑ q : Fin 64, _) + (∑ q : Fin 64, _) + _) + _
  refine congrArg₂ (· + ·) (congrArg₂ (· + ·) (congrArg₂ (· + ·) (Finset.sum_congr rfl fun q _ => ?_)
    (Finset.sum_congr rfl fun q _ => ?_)) ?_) ?_
  · rw [hwa]
    exact congrArg₂ (· * ·) (cat3_left x0 x1 x2 _ e q rfl rfl)
      (congrArg x3 (funext fun a => by match a with | ⟨0, _⟩ => rfl | ⟨1, _⟩ => rfl))
  · rw [hwb]
    exact congrArg₂ (· * ·) (cat3_mid x0 x1 x2 _ e q rfl rfl)
      (congrArg x3 (funext fun a => by match a with | ⟨0, _⟩ => rfl | ⟨1, _⟩ => rfl))
  · rw [hwr]
    exact congrArg₂ (· * ·) (cat3_right x0 x1 x2 _ e rfl rfl)
      (congrArg x3 (funext fun a => by match a with | ⟨0, _⟩ => rfl | ⟨1, _⟩ => rfl))
  · rw [hb1]
    exact congrArg x4 (funext fun a => by match a with | ⟨0, _⟩ => rfl)

/-- THE REFERENCE'S EDGE FEATURES are the edge network applied row by row to its gathered features and squared
    distances, with the weight pieces `wa`, `wb`, `wr` any arrays that hold rows 0–63, 64–127 and 128 of the first
    weight matrix and `b1`, `b2` the biases as rows. -/
theorem ref_edge (x0 : (⟨S50000x64, .f32⟩ : BufTy).Contents (Elt Ideal)) (x1 : (⟨S50000x3, .f32⟩ : BufTy).Contents (Elt Ideal)) (x2 : (⟨S2x800000, .i32⟩ : BufTy).Contents (Elt Ideal))
    (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (wa wb : Mat 64 64) (wr b1 b2 : Mat 1 64)
    (hwa : ∀ q k : Fin 64, wa (ix2 q k) = x3 (ix2 (⟨q.val, by omega⟩ : Fin 129) k))
    (hwb : ∀ q k : Fin 64, wb (ix2 q k) = x3 (ix2 (⟨64 + q.val, by omega⟩ : Fin 129) k))
    (hwr : ∀ k : Fin 64, wr (ix2 (0 : Fin 1) k) = x3 (ix2 (⟨128, by omega⟩ : Fin 129) k))
    (hb1 : ∀ k : Fin 64, b1 (ix2 (0 : Fin 1) k) = x4 (ix1 k))
    (hb2 : ∀ k : Fin 64, b2 (ix2 (0 : Fin 1) k) = x6 (ix1 k)) :
    val_main_v54 (F := Ideal) x0 x1 x2 x3 x4 x5 x6
      = edgeArr (R := 800000) (val_main_v28 (F := Ideal) x0 x2) (val_main_v35 (F := Ideal) x0 x2)
          (val_main_v21 (F := Ideal) x1 x2) wa wb wr b1 x5 b2 := by
  funext i
  obtain ⟨e, j, rfl⟩ : ∃ (e : Fin 800000) (j : Fin 64), i = ix2 e j := ⟨i 0, i 1, eq_ix2 i⟩
  rw [val_main_v54_apply, val_main_v51_apply, val_main_v53_apply, val_main_v50_apply, val_main_v52_apply,
    val_main_cst_9_apply, val_main_cst_10_apply]
  show lrelu (val_main_v49 (F := Ideal) x0 x1 x2 x3 x4 x5 x6 (ix2 e j)) = lrelu _
  refine congrArg lrelu ?_
  rw [val_main_v49_apply, val_main_v46_apply, val_main_v48_apply, val_main_v47_apply]
  show (∑ k : Fin 64, _) + _ = (∑ k : Fin 64, _) + _
  refine congrArg₂ (· + ·) (Finset.sum_congr rfl fun k _ => ?_) ?_
  · refine congrArg₂ (· * ·) ?_ (congrArg x5 (funext fun a => by match a with | ⟨0, _⟩ => rfl | ⟨1, _⟩ => rfl))
    have hl : lidx_main_v46 (ix2 e j) k = ix2 e k := funext fun a => by match a with | ⟨0, _⟩ => rfl | ⟨1, _⟩ => rfl
    rw [hl]
    exact hidden_ref x0 x1 x2 x3 x4 wa wb wr b1 hwa hwb hwr hb1 e k
  · rw [hb2]
    exact congrArg x6 (funext fun a => by match a with | ⟨0, _⟩ => rfl)

/-! ## The concatenated node input read at an index -/

/-- Columns 0 to 63 are the node's own features. -/
theorem cat2_left (x0 : (⟨S50000x64, .f32⟩ : BufTy).Contents (Elt Ideal)) (x1 : (⟨S50000x3, .f32⟩ : BufTy).Contents (Elt Ideal)) (x2 : (⟨S2x800000, .i32⟩ : BufTy).Contents (Elt Ideal))
    (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (j : S50000x128.Idx) (n : Fin 50000) (q : Fin 64) (h0 : (j 0).val = n.val) (h1 : (j 1).val = q.val) :
    val_main_v58 (F := Ideal) x0 x1 x2 x3 x4 x5 x6 j = x0 (ix2 n q) := by
  unfold val_main_v58
  refine concatenate_apply_piece (1 : Fin S50000x128.rank)
    [⟨S50000x64, x0⟩, ⟨S50000x64, val_main_v57 (F := Ideal) x0 x1 x2 x3 x4 x5 x6⟩]
    concatenates_S50000x64_S50000x64_S50000x128_d1 j
    0 (by show (0 : Nat) < 2; omega) S50000x64 _ rfl rfl 0 rfl (ix2 n q) (fun b hb => ?_) ?_
  · match b with
    | ⟨0, _⟩ => exact h0.symm
    | ⟨1, _⟩ => exact absurd rfl hb
  · show 0 + q.val = (j 1).val
    omega

/-- Columns 64 to 127 are the node's aggregated messages. -/
theorem cat2_right (x0 : (⟨S50000x64, .f32⟩ : BufTy).Contents (Elt Ideal)) (x1 : (⟨S50000x3, .f32⟩ : BufTy).Contents (Elt Ideal)) (x2 : (⟨S2x800000, .i32⟩ : BufTy).Contents (Elt Ideal))
    (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (j : S50000x128.Idx) (n : Fin 50000) (q : Fin 64) (h0 : (j 0).val = n.val) (h1 : (j 1).val = 64 + q.val) :
    val_main_v58 (F := Ideal) x0 x1 x2 x3 x4 x5 x6 j = val_main_v57 (F := Ideal) x0 x1 x2 x3 x4 x5 x6 (ix2 n q) := by
  unfold val_main_v58
  refine concatenate_apply_piece (1 : Fin S50000x128.rank)
    [⟨S50000x64, x0⟩, ⟨S50000x64, val_main_v57 (F := Ideal) x0 x1 x2 x3 x4 x5 x6⟩]
    concatenates_S50000x64_S50000x64_S50000x128_d1 j
    1 (by show (1 : Nat) < 2; omega) S50000x64 _ rfl rfl 64 rfl (ix2 n q) (fun b hb => ?_) ?_
  · match b with
    | ⟨0, _⟩ => exact h0.symm
    | ⟨1, _⟩ => exact absurd rfl hb
  · show 64 + q.val = (j 1).val
    omega

/-! ## The node features -/

/-- THE REFERENCE'S NODE FEATURES are the node network applied row by row to the node features and the reference's
    aggregated messages, with `wa`, `wb` any arrays that hold rows 0–63 and 64–127 of the first weight matrix and
    `b1`, `b2` the biases as rows. -/
theorem ref_node (x0 : (⟨S50000x64, .f32⟩ : BufTy).Contents (Elt Ideal)) (x1 : (⟨S50000x3, .f32⟩ : BufTy).Contents (Elt Ideal)) (x2 : (⟨S2x800000, .i32⟩ : BufTy).Contents (Elt Ideal))
    (x3 : (⟨S129x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal))
    (wa wb : Mat 64 64) (b1 b2 : Mat 1 64)
    (hwa : ∀ q k : Fin 64, wa (ix2 q k) = x7 (ix2 (⟨q.val, by omega⟩ : Fin 128) k))
    (hwb : ∀ q k : Fin 64, wb (ix2 q k) = x7 (ix2 (⟨64 + q.val, by omega⟩ : Fin 128) k))
    (hb1 : ∀ k : Fin 64, b1 (ix2 (0 : Fin 1) k) = x8 (ix1 k))
    (hb2 : ∀ k : Fin 64, b2 (ix2 (0 : Fin 1) k) = x10 (ix1 k)) :
    val_main_v72 (F := Ideal) x0 x1 x2 x3 x4 x5 x6 x7 x8 x9 x10
      = nodeArr (R := 50000) x0 (val_main_v57 (F := Ideal) x0 x1 x2 x3 x4 x5 x6) wa wb b1 x9 b2 := by
  funext i
  obtain ⟨n, j, rfl⟩ : ∃ (n : Fin 50000) (j : Fin 64), i = ix2 n j := ⟨i 0, i 1, eq_ix2 i⟩
  rw [val_main_v72_apply, val_main_v71_apply, val_main_v68_apply, val_main_v70_apply, val_main_v69_apply]
  show x0 (ix2 n j) + ((∑ k : Fin 64, _) + _) = x0 (ix2 n j) + ((∑ k : Fin 64, _) + _)
  refine congrArg (x0 (ix2 n j) + ·) (congrArg₂ (· + ·) (Finset.sum_congr rfl fun k _ => ?_) ?_)
  · refine congrArg₂ (· * ·) ?_ (congrArg x9 (funext fun a => by match a with | ⟨0, _⟩ => rfl | ⟨1, _⟩ => rfl))
    have hl : lidx_main_v68 (ix2 n j) k = ix2 n k := funext fun a => by match a with | ⟨0, _⟩ => rfl | ⟨1, _⟩ => rfl
    rw [hl, val_main_v67_apply, val_main_v64_apply, val_main_v66_apply, val_main_v63_apply, val_main_v65_apply,
      val_main_cst_12_apply, val_main_cst_13_apply]
    unfold nodeHidden
    show lrelu (val_main_v62 (F := Ideal) x0 x1 x2 x3 x4 x5 x6 x7 x8 (ix2 n k)) = lrelu _
    refine congrArg lrelu ?_
    rw [val_main_v62_apply, val_main_v59_apply, val_main_v61_apply, val_main_v60_apply, dot_split2]
    show ((∑ q : Fin 64, _) + ∑ q : Fin 64, _) + _ = ((∑ q : Fin 64, _) + ∑ q : Fin 64, _) + _
    refine congrArg₂ (· + ·) (congrArg₂ (· + ·) (Finset.sum_congr rfl fun q _ => ?_)
      (Finset.sum_congr rfl fun q _ => ?_)) ?_
    · rw [hwa]
      exact congrArg₂ (· * ·) (cat2_left x0 x1 x2 x3 x4 x5 x6 _ n q rfl rfl) (congrArg x7 (funext fun a => by match a with | ⟨0, _⟩ => rfl | ⟨1, _⟩ => rfl))
    · rw [hwb]
      exact congrArg₂ (· * ·) (cat2_right x0 x1 x2 x3 x4 x5 x6 _ n q rfl rfl) (congrArg x7 (funext fun a => by match a with | ⟨0, _⟩ => rfl | ⟨1, _⟩ => rfl))
    · rw [hb1]
      exact congrArg x8 (funext fun a => by match a with | ⟨0, _⟩ => rfl)
  · rw [hb2]
    exact congrArg x10 (funext fun a => by match a with | ⟨0, _⟩ => rfl)

end Cert.ReferenceIdeal.RefValue

end
-- ==== Proof.Bridge.lean ====
/-
  Where the two programs meet.

  Before its first kernel region the kernel's @main computes, by the same host operations as the reference and from
  the same arguments, the row indices, the two gathered feature arrays and the squared distances; between its regions
  it scatter-adds the edge features at the same row indices into the same zero array. So region 0 is entered with the
  reference's own gathered arrays, its result is the reference's edge features (the edge network on both sides), the
  aggregated messages agree, and region 1's result is the reference's node features (the node network on both sides).
-/
import proofs.«106970_j24395414242137_1_alg».proof.Proof.KernelHost
import proofs.«106970_j24395414242137_1_alg».proof.Proof.RefValue

set_option maxRecDepth 16384

noncomputable section

namespace Cert.Bridge

open Idealize.ShloMosaic Idealize.ShloMosaic.TcCoe Idealize.ShloMosaic.ValueIdx Cert.Spec Idealize.SL.Sem
open Idealize.ShloMosaic.StableHlo
open Cert.KernelIdeal.GenP Cert.KernelIdeal.HostValue

variable (m : (ℓ : Loc Cert.KernelIdeal.nD Cert.KernelIdeal.τ Cert.KernelIdeal.sig) → Buf (Elt Ideal) ℓ) (ρ : Dev Cert.KernelIdeal.nD → PrngReg)

/-! ## The shared host chain -/

/-- The source nodes' features, gathered. -/
theorem V1_v10 (c : Dev Cert.KernelIdeal.nD) : (V1 m ρ c Cert.KernelIdeal.main_v10 : Cert.KernelIdeal.S800000x64.Idx → EReal)
    = Cert.ReferenceIdeal.ReadP.val_main_v28 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) := by
  show StableHlo.after hostOps0 (W0 m ρ c) (Proc.devRef .tc Cert.KernelIdeal.main_v10) = _
  after_results_simp <;> rfl

/-- The target nodes' features, gathered. -/
theorem V1_v17 (c : Dev Cert.KernelIdeal.nD) : (V1 m ρ c Cert.KernelIdeal.main_v17 : Cert.KernelIdeal.S800000x64.Idx → EReal)
    = Cert.ReferenceIdeal.ReadP.val_main_v35 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) := by
  show StableHlo.after hostOps0 (W0 m ρ c) (Proc.devRef .tc Cert.KernelIdeal.main_v17) = _
  after_results_simp <;> rfl

/-- The squared distances, as a column. -/
theorem V1_v35 (c : Dev Cert.KernelIdeal.nD) : (V1 m ρ c Cert.KernelIdeal.main_v35 : Cert.KernelIdeal.S800000x1.Idx → EReal)
    = Cert.ReferenceIdeal.ReadP.val_main_v21 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) := by
  show StableHlo.after hostOps0 (W0 m ρ c) (Proc.devRef .tc Cert.KernelIdeal.main_v35) = _
  after_results_simp <;> rfl

/-- The row indices, still in place at region 0's exit. -/
theorem W2_v1 (c : Dev Cert.KernelIdeal.nD) : W2 m ρ c (Proc.devRef .tc Cert.KernelIdeal.main_v1)
    = Cert.ReferenceIdeal.ReadP.val_main_v1 (F := Ideal) (m ((c : Thread Cert.KernelIdeal.nD Cert.KernelIdeal.τ).loc Cert.KernelIdeal.main_arg2)) := by
  refine (W2_of_ne m ρ c Cert.KernelIdeal.main_v1 (by decide)).trans ?_
  show StableHlo.after hostOps0 (W0 m ρ c) (Proc.devRef .tc Cert.KernelIdeal.main_v1) = _
  after_results_simp <;> rfl

/-! ## The edge features -/

/-- REGION 0's RESULT is the reference's edge-feature stage of the same arguments. -/
theorem edge_eq (c : Dev Cert.KernelIdeal.nD) :
    Cert.KernelIdeal.EdgeValue.edgeOf (V1 m ρ) c = Cert.ReferenceIdeal.ReadP.val_main_v54 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  refine Eq.trans ?_ (Cert.ReferenceIdeal.RefValue.ref_edge (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))
    (V1 m ρ c Cert.KernelIdeal.main_v36) (V1 m ρ c Cert.KernelIdeal.main_v37) (V1 m ρ c Cert.KernelIdeal.main_v38) (V1 m ρ c Cert.KernelIdeal.main_v39) (V1 m ρ c Cert.KernelIdeal.main_v40)
    (V1_v36_at m ρ c) (V1_v37_at m ρ c) (V1_v38_at m ρ c) (V1_v39_at m ρ c) (V1_v40_at m ρ c)).symm
  show edgeArr (R := 800000) (V1 m ρ c Cert.KernelIdeal.main_v10) (V1 m ρ c Cert.KernelIdeal.main_v17) (V1 m ρ c Cert.KernelIdeal.main_v35) _ _ _ _
    (V1 m ρ c Cert.KernelIdeal.main_arg5) _ = _
  rw [V1_v10, V1_v17, V1_v35, V1_arg5]

/-! ## The aggregated messages and the node features -/

/-- The kernel's aggregated messages are the reference's: the same scatter-add of the same edge features. -/
theorem agg_eq (c : Dev Cert.KernelIdeal.nD) : (V3 m ρ c Cert.KernelIdeal.main_v44 : Cert.KernelIdeal.S50000x64.Idx → EReal)
    = Cert.ReferenceIdeal.ReadP.val_main_v57 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  rw [V3_v44, W2_v1, W2_v41, edge_eq]
  rfl

/-- REGION 1's RESULT is the reference's node-feature stage of the same arguments. -/
theorem node_eq (c : Dev Cert.KernelIdeal.nD) :
    Cert.KernelIdeal.NodeValue.nodeOf (V3 m ρ) c = Cert.ReferenceIdeal.ReadP.val_main_v72 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  refine Eq.trans ?_ (Cert.ReferenceIdeal.RefValue.ref_node (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))
    (V3 m ρ c Cert.KernelIdeal.main_v45) (V3 m ρ c Cert.KernelIdeal.main_v46) (V3 m ρ c Cert.KernelIdeal.main_v47) (V3 m ρ c Cert.KernelIdeal.main_v48)
    (V3_v45_at m ρ c) (V3_v46_at m ρ c) (V3_v47_at m ρ c) (V3_v48_at m ρ c)).symm
  show nodeArr (R := 50000) (V3 m ρ c Cert.KernelIdeal.main_arg0) (V3 m ρ c Cert.KernelIdeal.main_v44) _ _ _ (V3 m ρ c Cert.KernelIdeal.main_arg9) _ = _
  rw [V3_arg0, V3_arg9, agg_eq]

end Cert.Bridge

end
-- ==== Proof.RefRunChunks.lean ====
/-
  The reference's run, computed piece by piece.

  @main is 89 host operations in a line. What a buffer holds after the line is the fold of the operations' results; the
  fold is cut after each of the four values that several later operations read (the hidden edge layer, the edge
  features, the aggregated messages, the hidden node layer), and at each cut the value is named by a function of what
  the piece before it left: the pieces' values compose to the stage functions of the arguments, and a buffer a piece does
  not write comes through it unchanged.
-/
import proofs.«106970_j24395414242137_1_alg».proof.Proof.RefOps
import proofs.«106970_j24395414242137_1_alg».proof.Proof.RefStages
import Idealize.ShloMosaic.Lib.Pipeline.Frame

set_option maxRecDepth 8192

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## What each piece computes from what it finds -/

/-- The leaky rectifier on an array of one row per edge. -/
def lreluEdges (p : (⟨S800000x64, .f32⟩ : BufTy).Contents (Elt F)) : (⟨S800000x64, .f32⟩ : BufTy).Contents (Elt F) :=
  select (cmpf .oge p (broadcastInDim S800000x64 ![] bcast_S_S800000x64 (constant S_ .f32 0x00000000#32))) p
    (mulf (broadcastInDim S800000x64 ![] bcast_S_S800000x64 (constant S_ .f32 0x3E4CCCCD#32)) p)

/-- The leaky rectifier on an array of one row per node. -/
def lreluNodes (p : (⟨S50000x64, .f32⟩ : BufTy).Contents (Elt F)) : (⟨S50000x64, .f32⟩ : BufTy).Contents (Elt F) :=
  select (cmpf .oge p (broadcastInDim S50000x64 ![] bcast_S_S50000x64 (constant S_ .f32 0x00000000#32))) p
    (mulf (broadcastInDim S50000x64 ![] bcast_S_S50000x64 (constant S_ .f32 0x3E4CCCCD#32)) p)

/-- The second edge layer, from the hidden edge layer. -/
def edgeOut (y45 : (⟨S800000x64, .f32⟩ : BufTy).Contents (Elt F)) (x5 : (⟨S64x64, .f32⟩ : BufTy).Contents (Elt F)) (x6 : (⟨S64, .f32⟩ : BufTy).Contents (Elt F)) : (⟨S800000x64, .f32⟩ : BufTy).Contents (Elt F) :=
  lreluEdges (addf (Host.dotGeneral dot_S800000x64_S64x64_S800000x64_1_0_0_1_n_n none y45 x5)
    (broadcastInDim S800000x64 ![0, 1] bcast_S1x64_S800000x64_0_1 (broadcastInDim S1x64 ![1] bcast_S64_S1x64_1 x6)))

/-- The aggregated messages, from the row indices and the edge features. -/
def aggOf (y1 : (⟨S800000, .i32⟩ : BufTy).Contents (Elt F)) (y54 : (⟨S800000x64, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 y1) y54

/-- The hidden node layer, from the node features and the aggregated messages. -/
def nodeHid (x0 y57 : (⟨S50000x64, .f32⟩ : BufTy).Contents (Elt F)) (x7 : (⟨S128x64, .f32⟩ : BufTy).Contents (Elt F)) (x8 : (⟨S64, .f32⟩ : BufTy).Contents (Elt F)) : (⟨S50000x64, .f32⟩ : BufTy).Contents (Elt F) :=
  lreluNodes (addf (Host.dotGeneral dot_S50000x128_S128x64_S50000x64_1_0_0_1_n_n none
      (concatenate S50000x128 1 [⟨S50000x64, x0⟩, ⟨S50000x64, y57⟩] concatenates_S50000x64_S50000x64_S50000x128_d1) x7)
    (broadcastInDim S50000x64 ![0, 1] bcast_S1x64_S50000x64_0_1 (broadcastInDim S1x64 ![1] bcast_S64_S1x64_1 x8)))

/-- The node features, from the hidden node layer. -/
def nodeOut (x0 y67 : (⟨S50000x64, .f32⟩ : BufTy).Contents (Elt F)) (x9 : (⟨S64x64, .f32⟩ : BufTy).Contents (Elt F)) (x10 : (⟨S64, .f32⟩ : BufTy).Contents (Elt F)) : (⟨S50000x64, .f32⟩ : BufTy).Contents (Elt F) :=
  addf x0 (addf (Host.dotGeneral dot_S50000x64_S64x64_S50000x64_1_0_0_1_n_n none y67 x9)
    (broadcastInDim S50000x64 ![0, 1] bcast_S1x64_S50000x64_0_1 (broadcastInDim S1x64 ![1] bcast_S64_S1x64_1 x10)))

/-! ## The stage functions are these, composed -/

theorem val54_eq (x0 : (⟨S50000x64, .f32⟩ : BufTy).Contents (Elt F)) (x1 : (⟨S50000x3, .f32⟩ : BufTy).Contents (Elt F)) (x2 : (⟨S2x800000, .i32⟩ : BufTy).Contents (Elt F)) (x3 : (⟨S129x64, .f32⟩ : BufTy).Contents (Elt F))
    (x4 : (⟨S64, .f32⟩ : BufTy).Contents (Elt F)) (x5 : (⟨S64x64, .f32⟩ : BufTy).Contents (Elt F)) (x6 : (⟨S64, .f32⟩ : BufTy).Contents (Elt F)) :
    edgeOut (val_main_v45 (F := F) x0 x1 x2 x3 x4) x5 x6 = val_main_v54 (F := F) x0 x1 x2 x3 x4 x5 x6 := rfl

theorem val57_eq (x0 : (⟨S50000x64, .f32⟩ : BufTy).Contents (Elt F)) (x1 : (⟨S50000x3, .f32⟩ : BufTy).Contents (Elt F)) (x2 : (⟨S2x800000, .i32⟩ : BufTy).Contents (Elt F)) (x3 : (⟨S129x64, .f32⟩ : BufTy).Contents (Elt F))
    (x4 : (⟨S64, .f32⟩ : BufTy).Contents (Elt F)) (x5 : (⟨S64x64, .f32⟩ : BufTy).Contents (Elt F)) (x6 : (⟨S64, .f32⟩ : BufTy).Contents (Elt F)) :
    aggOf (val_main_v1 (F := F) x2) (val_main_v54 (F := F) x0 x1 x2 x3 x4 x5 x6) = val_main_v57 (F := F) x0 x1 x2 x3 x4 x5 x6 := rfl

theorem val67_eq (x0 : (⟨S50000x64, .f32⟩ : BufTy).Contents (Elt F)) (x1 : (⟨S50000x3, .f32⟩ : BufTy).Contents (Elt F)) (x2 : (⟨S2x800000, .i32⟩ : BufTy).Contents (Elt F)) (x3 : (⟨S129x64, .f32⟩ : BufTy).Contents (Elt F))
    (x4 : (⟨S64, .f32⟩ : BufTy).Contents (Elt F)) (x5 : (⟨S64x64, .f32⟩ : BufTy).Contents (Elt F)) (x6 : (⟨S64, .f32⟩ : BufTy).Contents (Elt F)) (x7 : (⟨S128x64, .f32⟩ : BufTy).Contents (Elt F)) (x8 : (⟨S64, .f32⟩ : BufTy).Contents (Elt F)) :
    nodeHid x0 (val_main_v57 (F := F) x0 x1 x2 x3 x4 x5 x6) x7 x8 = val_main_v67 (F := F) x0 x1 x2 x3 x4 x5 x6 x7 x8 := rfl

theorem val72_eq (x0 : (⟨S50000x64, .f32⟩ : BufTy).Contents (Elt F)) (x1 : (⟨S50000x3, .f32⟩ : BufTy).Contents (Elt F)) (x2 : (⟨S2x800000, .i32⟩ : BufTy).Contents (Elt F)) (x3 : (⟨S129x64, .f32⟩ : BufTy).Contents (Elt F))
    (x4 : (⟨S64, .f32⟩ : BufTy).Contents (Elt F)) (x5 : (⟨S64x64, .f32⟩ : BufTy).Contents (Elt F)) (x6 : (⟨S64, .f32⟩ : BufTy).Contents (Elt F)) (x7 : (⟨S128x64, .f32⟩ : BufTy).Contents (Elt F)) (x8 : (⟨S64, .f32⟩ : BufTy).Contents (Elt F))
    (x9 : (⟨S64x64, .f32⟩ : BufTy).Contents (Elt F)) (x10 : (⟨S64, .f32⟩ : BufTy).Contents (Elt F)) :
    nodeOut x0 (val_main_v67 (F := F) x0 x1 x2 x3 x4 x5 x6 x7 x8) x9 x10
      = val_main_v72 (F := F) x0 x1 x2 x3 x4 x5 x6 x7 x8 x9 x10 := rfl

/-! ## What each piece leaves at the buffers later pieces read -/

set_option maxHeartbeats 4000000 in
theorem A_v45 (X : Valuation τ sig (Elt F)) : after opsA X (Proc.devRef .tc main_v45)
    = val_main_v45 (F := F) (X (Proc.devRef .tc main_arg0)) (X (Proc.devRef .tc main_arg1)) (X (Proc.devRef .tc main_arg2)) (X (Proc.devRef .tc main_arg3)) (X (Proc.devRef .tc main_arg4)) := by
  after_results_simp <;> rfl

theorem A_v1 (X : Valuation τ sig (Elt F)) : after opsA X (Proc.devRef .tc main_v1) = val_main_v1 (F := F) (X (Proc.devRef .tc main_arg2)) := by
  after_results_simp <;> rfl

theorem B_v54 (X : Valuation τ sig (Elt F)) : after opsB X (Proc.devRef .tc main_v54)
    = edgeOut (X (Proc.devRef .tc main_v45)) (X (Proc.devRef .tc main_arg5)) (X (Proc.devRef .tc main_arg6)) := by
  after_results_simp <;> rfl

theorem C_v57 (X : Valuation τ sig (Elt F)) : after opsC X (Proc.devRef .tc main_v57)
    = aggOf (X (Proc.devRef .tc main_v1)) (X (Proc.devRef .tc main_v54)) := by
  after_results_simp <;> rfl

theorem D_v67 (X : Valuation τ sig (Elt F)) : after opsD X (Proc.devRef .tc main_v67)
    = nodeHid (X (Proc.devRef .tc main_arg0)) (X (Proc.devRef .tc main_v57)) (X (Proc.devRef .tc main_arg7)) (X (Proc.devRef .tc main_arg8)) := by
  after_results_simp <;> rfl

theorem E_v72 (X : Valuation τ sig (Elt F)) : after opsE X (Proc.devRef .tc main_v72)
    = nodeOut (X (Proc.devRef .tc main_arg0)) (X (Proc.devRef .tc main_v67)) (X (Proc.devRef .tc main_arg9)) (X (Proc.devRef .tc main_arg10)) := by
  after_results_simp <;> rfl

/-! ## What each piece does not write -/

theorem keepA_arg0 (X : Valuation τ sig (Elt F)) : after opsA X (Proc.devRef .tc main_arg0) = X (Proc.devRef .tc main_arg0) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg1 (X : Valuation τ sig (Elt F)) : after opsA X (Proc.devRef .tc main_arg1) = X (Proc.devRef .tc main_arg1) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg2 (X : Valuation τ sig (Elt F)) : after opsA X (Proc.devRef .tc main_arg2) = X (Proc.devRef .tc main_arg2) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg3 (X : Valuation τ sig (Elt F)) : after opsA X (Proc.devRef .tc main_arg3) = X (Proc.devRef .tc main_arg3) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg4 (X : Valuation τ sig (Elt F)) : after opsA X (Proc.devRef .tc main_arg4) = X (Proc.devRef .tc main_arg4) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg5 (X : Valuation τ sig (Elt F)) : after opsA X (Proc.devRef .tc main_arg5) = X (Proc.devRef .tc main_arg5) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg6 (X : Valuation τ sig (Elt F)) : after opsA X (Proc.devRef .tc main_arg6) = X (Proc.devRef .tc main_arg6) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg7 (X : Valuation τ sig (Elt F)) : after opsA X (Proc.devRef .tc main_arg7) = X (Proc.devRef .tc main_arg7) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg8 (X : Valuation τ sig (Elt F)) : after opsA X (Proc.devRef .tc main_arg8) = X (Proc.devRef .tc main_arg8) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg9 (X : Valuation τ sig (Elt F)) : after opsA X (Proc.devRef .tc main_arg9) = X (Proc.devRef .tc main_arg9) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepA_arg10 (X : Valuation τ sig (Elt F)) : after opsA X (Proc.devRef .tc main_arg10) = X (Proc.devRef .tc main_arg10) :=
  StableHlo.after_of_forall_not_mem _ _ (List.forall_iff_forall_mem.mp (by
    simp only [opsA, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg0 (X : Valuation τ sig (Elt F)) : after opsB X (Proc.devRef .tc main_arg0) = X (Proc.devRef .tc main_arg0) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg1 (X : Valuation τ sig (Elt F)) : after opsB X (Proc.devRef .tc main_arg1) = X (Proc.devRef .tc main_arg1) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg2 (X : Valuation τ sig (Elt F)) : after opsB X (Proc.devRef .tc main_arg2) = X (Proc.devRef .tc main_arg2) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg3 (X : Valuation τ sig (Elt F)) : after opsB X (Proc.devRef .tc main_arg3) = X (Proc.devRef .tc main_arg3) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg4 (X : Valuation τ sig (Elt F)) : after opsB X (Proc.devRef .tc main_arg4) = X (Proc.devRef .tc main_arg4) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg5 (X : Valuation τ sig (Elt F)) : after opsB X (Proc.devRef .tc main_arg5) = X (Proc.devRef .tc main_arg5) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg6 (X : Valuation τ sig (Elt F)) : after opsB X (Proc.devRef .tc main_arg6) = X (Proc.devRef .tc main_arg6) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg7 (X : Valuation τ sig (Elt F)) : after opsB X (Proc.devRef .tc main_arg7) = X (Proc.devRef .tc main_arg7) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg8 (X : Valuation τ sig (Elt F)) : after opsB X (Proc.devRef .tc main_arg8) = X (Proc.devRef .tc main_arg8) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg9 (X : Valuation τ sig (Elt F)) : after opsB X (Proc.devRef .tc main_arg9) = X (Proc.devRef .tc main_arg9) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_arg10 (X : Valuation τ sig (Elt F)) : after opsB X (Proc.devRef .tc main_arg10) = X (Proc.devRef .tc main_arg10) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg0 (X : Valuation τ sig (Elt F)) : after opsC X (Proc.devRef .tc main_arg0) = X (Proc.devRef .tc main_arg0) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg1 (X : Valuation τ sig (Elt F)) : after opsC X (Proc.devRef .tc main_arg1) = X (Proc.devRef .tc main_arg1) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg2 (X : Valuation τ sig (Elt F)) : after opsC X (Proc.devRef .tc main_arg2) = X (Proc.devRef .tc main_arg2) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg3 (X : Valuation τ sig (Elt F)) : after opsC X (Proc.devRef .tc main_arg3) = X (Proc.devRef .tc main_arg3) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg4 (X : Valuation τ sig (Elt F)) : after opsC X (Proc.devRef .tc main_arg4) = X (Proc.devRef .tc main_arg4) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg5 (X : Valuation τ sig (Elt F)) : after opsC X (Proc.devRef .tc main_arg5) = X (Proc.devRef .tc main_arg5) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg6 (X : Valuation τ sig (Elt F)) : after opsC X (Proc.devRef .tc main_arg6) = X (Proc.devRef .tc main_arg6) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg7 (X : Valuation τ sig (Elt F)) : after opsC X (Proc.devRef .tc main_arg7) = X (Proc.devRef .tc main_arg7) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg8 (X : Valuation τ sig (Elt F)) : after opsC X (Proc.devRef .tc main_arg8) = X (Proc.devRef .tc main_arg8) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg9 (X : Valuation τ sig (Elt F)) : after opsC X (Proc.devRef .tc main_arg9) = X (Proc.devRef .tc main_arg9) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_arg10 (X : Valuation τ sig (Elt F)) : after opsC X (Proc.devRef .tc main_arg10) = X (Proc.devRef .tc main_arg10) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg0 (X : Valuation τ sig (Elt F)) : after opsD X (Proc.devRef .tc main_arg0) = X (Proc.devRef .tc main_arg0) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg1 (X : Valuation τ sig (Elt F)) : after opsD X (Proc.devRef .tc main_arg1) = X (Proc.devRef .tc main_arg1) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg2 (X : Valuation τ sig (Elt F)) : after opsD X (Proc.devRef .tc main_arg2) = X (Proc.devRef .tc main_arg2) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg3 (X : Valuation τ sig (Elt F)) : after opsD X (Proc.devRef .tc main_arg3) = X (Proc.devRef .tc main_arg3) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg4 (X : Valuation τ sig (Elt F)) : after opsD X (Proc.devRef .tc main_arg4) = X (Proc.devRef .tc main_arg4) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg5 (X : Valuation τ sig (Elt F)) : after opsD X (Proc.devRef .tc main_arg5) = X (Proc.devRef .tc main_arg5) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg6 (X : Valuation τ sig (Elt F)) : after opsD X (Proc.devRef .tc main_arg6) = X (Proc.devRef .tc main_arg6) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg7 (X : Valuation τ sig (Elt F)) : after opsD X (Proc.devRef .tc main_arg7) = X (Proc.devRef .tc main_arg7) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg8 (X : Valuation τ sig (Elt F)) : after opsD X (Proc.devRef .tc main_arg8) = X (Proc.devRef .tc main_arg8) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg9 (X : Valuation τ sig (Elt F)) : after opsD X (Proc.devRef .tc main_arg9) = X (Proc.devRef .tc main_arg9) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_arg10 (X : Valuation τ sig (Elt F)) : after opsD X (Proc.devRef .tc main_arg10) = X (Proc.devRef .tc main_arg10) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg0 (X : Valuation τ sig (Elt F)) : after opsE X (Proc.devRef .tc main_arg0) = X (Proc.devRef .tc main_arg0) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg1 (X : Valuation τ sig (Elt F)) : after opsE X (Proc.devRef .tc main_arg1) = X (Proc.devRef .tc main_arg1) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg2 (X : Valuation τ sig (Elt F)) : after opsE X (Proc.devRef .tc main_arg2) = X (Proc.devRef .tc main_arg2) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg3 (X : Valuation τ sig (Elt F)) : after opsE X (Proc.devRef .tc main_arg3) = X (Proc.devRef .tc main_arg3) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg4 (X : Valuation τ sig (Elt F)) : after opsE X (Proc.devRef .tc main_arg4) = X (Proc.devRef .tc main_arg4) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg5 (X : Valuation τ sig (Elt F)) : after opsE X (Proc.devRef .tc main_arg5) = X (Proc.devRef .tc main_arg5) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg6 (X : Valuation τ sig (Elt F)) : after opsE X (Proc.devRef .tc main_arg6) = X (Proc.devRef .tc main_arg6) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg7 (X : Valuation τ sig (Elt F)) : after opsE X (Proc.devRef .tc main_arg7) = X (Proc.devRef .tc main_arg7) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg8 (X : Valuation τ sig (Elt F)) : after opsE X (Proc.devRef .tc main_arg8) = X (Proc.devRef .tc main_arg8) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg9 (X : Valuation τ sig (Elt F)) : after opsE X (Proc.devRef .tc main_arg9) = X (Proc.devRef .tc main_arg9) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_arg10 (X : Valuation τ sig (Elt F)) : after opsE X (Proc.devRef .tc main_arg10) = X (Proc.devRef .tc main_arg10) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepB_v1 (X : Valuation τ sig (Elt F)) : after opsB X (Proc.devRef .tc main_v1) = X (Proc.devRef .tc main_v1) :=
  StableHlo.after_of_forall_not_mem _ _ (List.forall_iff_forall_mem.mp (by
    simp only [opsB, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepC_v54 (X : Valuation τ sig (Elt F)) : after opsC X (Proc.devRef .tc main_v54) = X (Proc.devRef .tc main_v54) :=
  StableHlo.after_of_forall_not_mem _ _ (List.forall_iff_forall_mem.mp (by
    simp only [opsC, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepD_v54 (X : Valuation τ sig (Elt F)) : after opsD X (Proc.devRef .tc main_v54) = X (Proc.devRef .tc main_v54) :=
  StableHlo.after_of_forall_not_mem _ _ (List.forall_iff_forall_mem.mp (by
    simp only [opsD, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem keepE_v54 (X : Valuation τ sig (Elt F)) : after opsE X (Proc.devRef .tc main_v54) = X (Proc.devRef .tc main_v54) :=
  StableHlo.after_of_forall_not_mem _ _ (List.forall_iff_forall_mem.mp (by
    simp only [opsE, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The whole line -/

theorem after_arg0 (V : Valuation τ sig (Elt F)) : after ops V (Proc.devRef .tc main_arg0) = V (Proc.devRef .tc main_arg0) := by
  rw [ops_chunks, StableHlo.after_append, StableHlo.after_append, StableHlo.after_append, StableHlo.after_append,
    keepE_arg0, keepD_arg0, keepC_arg0, keepB_arg0, keepA_arg0]
theorem after_arg1 (V : Valuation τ sig (Elt F)) : after ops V (Proc.devRef .tc main_arg1) = V (Proc.devRef .tc main_arg1) := by
  rw [ops_chunks, StableHlo.after_append, StableHlo.after_append, StableHlo.after_append, StableHlo.after_append,
    keepE_arg1, keepD_arg1, keepC_arg1, keepB_arg1, keepA_arg1]
theorem after_arg2 (V : Valuation τ sig (Elt F)) : after ops V (Proc.devRef .tc main_arg2) = V (Proc.devRef .tc main_arg2) := by
  rw [ops_chunks, StableHlo.after_append, StableHlo.after_append, StableHlo.after_append, StableHlo.after_append,
    keepE_arg2, keepD_arg2, keepC_arg2, keepB_arg2, keepA_arg2]
theorem after_arg3 (V : Valuation τ sig (Elt F)) : after ops V (Proc.devRef .tc main_arg3) = V (Proc.devRef .tc main_arg3) := by
  rw [ops_chunks, StableHlo.after_append, StableHlo.after_append, StableHlo.after_append, StableHlo.after_append,
    keepE_arg3, keepD_arg3, keepC_arg3, keepB_arg3, keepA_arg3]
theorem after_arg4 (V : Valuation τ sig (Elt F)) : after ops V (Proc.devRef .tc main_arg4) = V (Proc.devRef .tc main_arg4) := by
  rw [ops_chunks, StableHlo.after_append, StableHlo.after_append, StableHlo.after_append, StableHlo.after_append,
    keepE_arg4, keepD_arg4, keepC_arg4, keepB_arg4, keepA_arg4]
theorem after_arg5 (V : Valuation τ sig (Elt F)) : after ops V (Proc.devRef .tc main_arg5) = V (Proc.devRef .tc main_arg5) := by
  rw [ops_chunks, StableHlo.after_append, StableHlo.after_append, StableHlo.after_append, StableHlo.after_append,
    keepE_arg5, keepD_arg5, keepC_arg5, keepB_arg5, keepA_arg5]
theorem after_arg6 (V : Valuation τ sig (Elt F)) : after ops V (Proc.devRef .tc main_arg6) = V (Proc.devRef .tc main_arg6) := by
  rw [ops_chunks, StableHlo.after_append, StableHlo.after_append, StableHlo.after_append, StableHlo.after_append,
    keepE_arg6, keepD_arg6, keepC_arg6, keepB_arg6, keepA_arg6]
theorem after_arg7 (V : Valuation τ sig (Elt F)) : after ops V (Proc.devRef .tc main_arg7) = V (Proc.devRef .tc main_arg7) := by
  rw [ops_chunks, StableHlo.after_append, StableHlo.after_append, StableHlo.after_append, StableHlo.after_append,
    keepE_arg7, keepD_arg7, keepC_arg7, keepB_arg7, keepA_arg7]
theorem after_arg8 (V : Valuation τ sig (Elt F)) : after ops V (Proc.devRef .tc main_arg8) = V (Proc.devRef .tc main_arg8) := by
  rw [ops_chunks, StableHlo.after_append, StableHlo.after_append, StableHlo.after_append, StableHlo.after_append,
    keepE_arg8, keepD_arg8, keepC_arg8, keepB_arg8, keepA_arg8]
theorem after_arg9 (V : Valuation τ sig (Elt F)) : after ops V (Proc.devRef .tc main_arg9) = V (Proc.devRef .tc main_arg9) := by
  rw [ops_chunks, StableHlo.after_append, StableHlo.after_append, StableHlo.after_append, StableHlo.after_append,
    keepE_arg9, keepD_arg9, keepC_arg9, keepB_arg9, keepA_arg9]
theorem after_arg10 (V : Valuation τ sig (Elt F)) : after ops V (Proc.devRef .tc main_arg10) = V (Proc.devRef .tc main_arg10) := by
  rw [ops_chunks, StableHlo.after_append, StableHlo.after_append, StableHlo.after_append, StableHlo.after_append,
    keepE_arg10, keepD_arg10, keepC_arg10, keepB_arg10, keepA_arg10]

/-- The edge features after the whole line. -/
theorem after_v54 (V : Valuation τ sig (Elt F)) : after ops V (Proc.devRef .tc main_v54)
    = val_main_v54 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_chunks, StableHlo.after_append, StableHlo.after_append, StableHlo.after_append, StableHlo.after_append,
    keepE_v54, keepD_v54, keepC_v54, B_v54, A_v45, keepA_arg5, keepA_arg6, val54_eq]

/-- The node features after the whole line. -/
theorem after_v72 (V : Valuation τ sig (Elt F)) : after ops V (Proc.devRef .tc main_v72)
    = val_main_v72 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_chunks, StableHlo.after_append, StableHlo.after_append, StableHlo.after_append, StableHlo.after_append,
    E_v72, D_v67, C_v57, B_v54, A_v45, keepB_v1, A_v1,
    keepD_arg0, keepD_arg9, keepD_arg10,
    keepC_arg0, keepC_arg7, keepC_arg8, keepC_arg9, keepC_arg10,
    keepB_arg0, keepB_arg7, keepB_arg8, keepB_arg9, keepB_arg10,
    keepA_arg0, keepA_arg5, keepA_arg6, keepA_arg7, keepA_arg8, keepA_arg9, keepA_arg10,
    val54_eq, val57_eq, val67_eq, val72_eq]

/-- On every device, for any float values, from any memory with zero counters: every weakly fair execution of @main
    terminates with each result at its stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg1) = m ((c.tc : Thread nD τ).loc main_arg1)
      ∧ r.2.mem ((c.tc : Thread nD τ).loc main_v54) = val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v72).trans (after_v72 _),
      (h c main_arg1).trans (after_arg1 _),
      (h c main_v54).trans (after_v54 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _)⟩)
    (run_seq scopedRefs_eq scopedSems_eq defs main (fun _ => ops) main_eq (fun _ => ops_sub) m ρ)

end Cert.ReferenceIdeal.ValueP

end
-- ==== Proof.lean ====
/-
  The certificate: a message-passing layer on a graph, computed by two tiled kernels against a plain reference.

  Both programs gather the source and target nodes' features and the squared distance of every edge, pass each edge
  through a two-layer network with a leaky rectifier, add the edge features up at their source nodes, and pass each
  node, with its aggregated messages, through a second two-layer network with a residual. The kernel program runs the
  two networks in kernel regions, 6400 edges and 5000 nodes to a grid point, and multiplies the concatenated inputs of
  each first layer piece by piece against slices of the weight matrix; the reference multiplies the concatenation
  against the whole matrix. Over the extended reals the two are the same function: a finite sum splits into the sums
  of its pieces, and every other operation is applied alike on both sides.

  The frames of the two kernel programs are the frame certificates of their regions; the reference's frame is its run
  with the results dropped. For the value claim the kernel program's run is read at its last boundary: the edge
  features are what region 0 leaves, the edge network applied row by row to the gathered arrays; the node features are
  what region 1 leaves, the node network applied row by row to the node features and the aggregated messages. The
  reference's run ends with the same two functions of the same arguments.
-/
import proofs.«106970_j24395414242137_1_alg».proof.Defs
import proofs.«106970_j24395414242137_1_alg».proof.Proof.Gen.Kernel
import proofs.«106970_j24395414242137_1_alg».proof.Proof.Gen.KernelIdeal
import proofs.«106970_j24395414242137_1_alg».proof.Proof.Gen.ReferenceIdeal
import proofs.«106970_j24395414242137_1_alg».proof.Proof.Gen.Pre_finite_inputs
import proofs.«106970_j24395414242137_1_alg».proof.Proof.KernelFrame
import proofs.«106970_j24395414242137_1_alg».proof.Proof.KernelIdealFrame
import proofs.«106970_j24395414242137_1_alg».proof.Proof.KernelIdealRun
import proofs.«106970_j24395414242137_1_alg».proof.Proof.KernelHost
import proofs.«106970_j24395414242137_1_alg».proof.Proof.Bridge
import proofs.«106970_j24395414242137_1_alg».proof.Proof.RefRunChunks
import Idealize.ShloMosaic.Adequacy
import Idealize.ShloMosaic.Init

noncomputable section

namespace Cert.Proof

open Idealize.ShloMosaic Idealize.ShloMosaic.TcCoe Idealize.SL.Sem

/-- The word-level kernel program terminates without fault and keeps its arguments. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- The reference's frame: its run, the results dropped. -/
theorem frame_reference : Cert.frame_ReferenceIdeal := fun m ρ _ =>
  (θ_run Cert.ReferenceIdeal.defs _ _).mono (fun _ h c => (h c).2.2.2) (Cert.ReferenceIdeal.ValueP.run (F := Ideal) m ρ)

/-- From memories that agree on the arguments both idealized programs end with the same node features, the same
    coordinates and the same edge features. -/
theorem algebraic : Cert.algebraic_KernelIdeal_ReferenceIdeal := by
  intro m ρ m' ρ' _ hagree
  refine ⟨fun c => Cert.KernelIdeal.NodeValue.nodeOf (Cert.KernelIdeal.GenP.V3 m ρ) c,
    fun c => m ((c.tc : Thread Cert.KernelIdeal.nD Cert.KernelIdeal.τ).loc Cert.KernelIdeal.main_arg1),
    fun c => Cert.KernelIdeal.EdgeValue.edgeOf (Cert.KernelIdeal.GenP.V1 m ρ) c, ?_, ?_⟩
  · refine (θ_run Cert.KernelIdeal.defs _ _).mono (fun r h c => ?_) (Cert.KernelIdeal.GenP.run_all m ρ)
    exact ⟨(h c _ (Cert.KernelIdeal.GenP.mem_uc Cert.KernelIdeal.main_v49 (by decide))).trans (Cert.KernelIdeal.HostValue.W4_v49 m ρ c),
      (h c _ (Cert.KernelIdeal.GenP.mem_uc Cert.KernelIdeal.main_arg1 (by decide))).trans (Cert.KernelIdeal.GenP.W4_main_arg1 m ρ c),
      (h c _ (Cert.KernelIdeal.GenP.mem_uc Cert.KernelIdeal.main_v41 (by decide))).trans (Cert.KernelIdeal.HostValue.W4_v41 m ρ c),
      (h c _ (Cert.KernelIdeal.GenP.mem_uc Cert.KernelIdeal.main_arg0 (by decide))).trans (Cert.KernelIdeal.GenP.W4_main_arg0 m ρ c),
      (h c _ (Cert.KernelIdeal.GenP.mem_uc Cert.KernelIdeal.main_arg1 (by decide))).trans (Cert.KernelIdeal.GenP.W4_main_arg1 m ρ c),
      (h c _ (Cert.KernelIdeal.GenP.mem_uc Cert.KernelIdeal.main_arg2 (by decide))).trans (Cert.KernelIdeal.GenP.W4_main_arg2 m ρ c),
      (h c _ (Cert.KernelIdeal.GenP.mem_uc Cert.KernelIdeal.main_arg3 (by decide))).trans (Cert.KernelIdeal.GenP.W4_main_arg3 m ρ c),
      (h c _ (Cert.KernelIdeal.GenP.mem_uc Cert.KernelIdeal.main_arg4 (by decide))).trans (Cert.KernelIdeal.GenP.W4_main_arg4 m ρ c),
      (h c _ (Cert.KernelIdeal.GenP.mem_uc Cert.KernelIdeal.main_arg5 (by decide))).trans (Cert.KernelIdeal.GenP.W4_main_arg5 m ρ c),
      (h c _ (Cert.KernelIdeal.GenP.mem_uc Cert.KernelIdeal.main_arg6 (by decide))).trans (Cert.KernelIdeal.GenP.W4_main_arg6 m ρ c),
      (h c _ (Cert.KernelIdeal.GenP.mem_uc Cert.KernelIdeal.main_arg7 (by decide))).trans (Cert.KernelIdeal.GenP.W4_main_arg7 m ρ c),
      (h c _ (Cert.KernelIdeal.GenP.mem_uc Cert.KernelIdeal.main_arg8 (by decide))).trans (Cert.KernelIdeal.GenP.W4_main_arg8 m ρ c),
      (h c _ (Cert.KernelIdeal.GenP.mem_uc Cert.KernelIdeal.main_arg9 (by decide))).trans (Cert.KernelIdeal.GenP.W4_main_arg9 m ρ c),
      (h c _ (Cert.KernelIdeal.GenP.mem_uc Cert.KernelIdeal.main_arg10 (by decide))).trans (Cert.KernelIdeal.GenP.W4_main_arg10 m ρ c)⟩
  · refine (θ_run Cert.ReferenceIdeal.defs _ _).mono (fun r h c => ?_) (Cert.ReferenceIdeal.ValueP.run (F := Ideal) m' ρ')
    obtain ⟨a0, a1, a2, a3, a4, a5, a6, a7, a8, a9, a10⟩ := hagree c
    refine ⟨(h c).1.trans ?_, (h c).2.1.trans a1, (h c).2.2.1.trans ?_, (h c).2.2.2⟩
    · rw [a0, a1, a2, a3, a4, a5, a6, a7, a8, a9, a10]
      exact (Cert.Bridge.node_eq m ρ c).symm
    · rw [a0, a1, a2, a3, a4, a5, a6]
      exact (Cert.Bridge.edge_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
